-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S8x8x1x9x128x128 : Shape := ⟨6, ![8, 8, 1, 9, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel
  bcast_S_S8x8x1x9x128x128 : S_.BroadcastsInDim S8x8x1x9x128x128 (![] : Fin 0 → Fin S8x8x1x9x128x128.rank)
  reducesTo_S8x8x1x9x128x128_S_d0_1_2_3_4_5 : S8x8x1x9x128x128.ReducesTo [0, 1, 2, 3, 4, 5] S_

variable [Facts]

def fn {F : FTy → Type} [FloatOps F] (main_arg0 : FVec F S8x64x128x128 .f32) (main_arg1 : FVec F S8x8x1x9x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  let main_v4 : FVec F S8x8x1x9x128x128 .f32 := Host.absf main_arg1
  let main_cst_0 : FVec F S_ .f32 := constant S_ .f32 0x7F800000#32
  let main_v5 : FVec F S8x8x1x9x128x128 .f32 := broadcastInDim S8x8x1x9x128x128 ![] bcast_S_S8x8x1x9x128x128 main_cst_0
  let main_v6 : IVec S8x8x1x9x128x128 1 := cmpf .olt main_v4 main_v5
  let main_c_1 : IVec S_ 1 := constantI S_ 1 1#1
  let main_v7 : IVec S_ 1 := (fun x v => Host.reduce IntOp.andi x v reducesTo_S8x8x1x9x128x128_S_d0_1_2_3_4_5 h_S_) main_v6 main_c_1
  let main_v8 : IVec S_ 1 := andi main_v3 main_v7
  main_v8
-- ==== Kernel.lean ====
abbrev S8x64x128x128 : Shape := ⟨4, ![8, 64, 128, 128]⟩
abbrev S8x8x1x9x128x128 : Shape := ⟨6, ![8, 8, 1, 9, 128, 128]⟩
abbrev S_ : Shape := ⟨0, ![]⟩
abbrev S8x64x130x128 : Shape := ⟨4, ![8, 64, 130, 128]⟩
abbrev S8x8x9x128x128 : Shape := ⟨5, ![8, 8, 9, 128, 128]⟩
abbrev S1x64x130x128 : Shape := ⟨4, ![1, 64, 130, 128]⟩
abbrev S1x8x9x128x128 : Shape := ⟨5, ![1, 8, 9, 128, 128]⟩
abbrev S1x64x128x128 : Shape := ⟨4, ![1, 64, 128, 128]⟩
abbrev S8x128x128 : Shape := ⟨3, ![8, 128, 128]⟩
abbrev S1x8x128x128 : Shape := ⟨4, ![1, 8, 128, 128]⟩
abbrev S1x1x1x128x128 : Shape := ⟨5, ![1, 1, 1, 128, 128]⟩
abbrev S128x128 : Shape := ⟨2, ![128, 128]⟩
abbrev S1x128x128 : Shape := ⟨3, ![1, 128, 128]⟩

abbrev nBuf : Space → Nat
  | .hbm => 7
  | .vmem => 6
  | .smem => 0
  | _ => 0

abbrev bufTy : (tb : Table) → Fin (tcTables nBuf tb) → BufTy
  | .hbm, ⟨0, _⟩ => ⟨S8x64x128x128, .f32⟩
  | .hbm, ⟨1, _⟩ => ⟨S8x8x1x9x128x128, .f32⟩
  | .hbm, ⟨2, _⟩ => ⟨S_, .i32⟩
  | .hbm, ⟨3, _⟩ => ⟨S_, .f32⟩
  | .hbm, ⟨4, _⟩ => ⟨S8x64x130x128, .f32⟩
  | .hbm, ⟨5, _⟩ => ⟨S8x8x9x128x128, .f32⟩
  | .hbm, ⟨6, _⟩ => ⟨S8x64x128x128, .f32⟩
  | .local _ .vmem, ⟨0, _⟩ => ⟨S1x64x130x128, .f32⟩
  | .local _ .vmem, ⟨1, _⟩ => ⟨S1x64x130x128, .f32⟩
  | .local _ .vmem, ⟨2, _⟩ => ⟨S1x8x9x128x128, .f32⟩
  | .local _ .vmem, ⟨3, _⟩ => ⟨S1x8x9x128x128, .f32⟩
  | .local _ .vmem, ⟨4, _⟩ => ⟨S1x64x128x128, .f32⟩
  | .local _ .vmem, ⟨5, _⟩ => ⟨S1x64x128x128, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x130x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x9x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x64x128x128_S8x64x130x128_000_000_110_000 : S8x64x128x128.Pads (![0, 0, 1, 0] : Fin 4 → Nat) ![0, 0, 1, 0] ![0, 0, 0, 0] S8x64x130x128
  h_S_ : 0 < S_.numel
  shapeCasts_S8x8x1x9x128x128_S8x8x9x128x128 : S8x8x1x9x128x128.ShapeCasts S8x8x9x128x128
  iota_S8x128x128_d2_w32 : S8x128x128.Iotas .tc 32 [2]
  inb_S1x64x130x128_S1x8x128x128_0_0_0_0 : ∀ a, (![0, 0, 0, 0] : Fin 4 → Nat) a + S1x8x128x128.size a ≤ S1x64x130x128.size a
  h_S1x8x128x128 : 0 < S1x8x128x128.numel
  shapeCasts_S1x8x128x128_S8x128x128 : S1x8x128x128.ShapeCasts S8x128x128
  rotates_S8x128x128_d2 : S8x128x128.Rotates 2 none
  inb_S1x8x9x128x128_S1x1x1x128x128_0_0_0_0_0 : ∀ a, (![0, 0, 0, 0, 0] : Fin 5 → Nat) a + S1x1x1x128x128.size a ≤ S1x8x9x128x128.size a
  h_S1x1x1x128x128 : 0 < S1x1x1x128x128.numel
  shapeCasts_S1x1x1x128x128_S128x128 : S1x1x1x128x128.ShapeCasts S128x128
  shapeCasts_S128x128_S1x128x128 : S128x128.ShapeCasts S1x128x128
  broadcasts_S1x128x128_S8x128x128 : S1x128x128.Broadcasts S8x128x128
  inb_S1x8x9x128x128_S1x1x1x128x128_0_0_1_0_0 : ∀ a, (![0, 0, 1, 0, 0] : Fin 5 → Nat) a + S1x1x1x128x128.size a ≤ S1x8x9x128x128.size a
  inb_S1x8x9x128x128_S1x1x1x128x128_0_0_2_0_0 : ∀ a, (![0, 0, 2, 0, 0] : Fin 5 → Nat) a + S1x1x1x128x128.size a ≤ S1x8x9x128x128.size a
  inb_S1x64x130x128_S1x8x128x128_0_0_1_0 : ∀ a, (![0, 0, 1, 0] : Fin 4 → Nat) a + S1x8x128x128.size a ≤ S1x64x130x128.size a
  inb_S1x8x9x128x128_S1x1x1x128x128_0_0_3_0_0 : ∀ a, (![0, 0, 3, 0, 0] : Fin 5 → Nat) a + S1x1x1x128x128.size a ≤ S1x8x9x128x128.size a
  inb_S1x8x9x128x128_S1x1x1x128x128_0_0_4_0_0 : ∀ a, (![0, 0, 4, 0, 0] : Fin 5 → Nat) a + S1x1x1x128x128.size a ≤ S1x8x9x128x128.size a
  inb_S1x8x9x128x128_S1x1x1x128x128_0_0_5_0_0 : ∀ a, (![0, 0, 5, 0, 0] : Fin 5 → Nat) a + S1x1x1x128x128.size a ≤ S1x8x9x128x128.size a
  inb_S1x64x130x128_S1x8x128x128_0_0_2_0 : ∀ a, (![0, 0, 2, 0] : Fin 4 → Nat) a + S1x8x128x128.size a ≤ S1x64x130x128.size a
  inb_S1x8x9x128x128_S1x1x1x128x128_0_0_6_0_0 : ∀ a, (![0, 0, 6, 0, 0] : Fin 5 → Nat) a + S1x1x1x128x128.size a ≤ S1x8x9x128x128.size a
  inb_S1x8x9x128x128_S1x1x1x128x128_0_0_7_0_0 : ∀ a, (![0, 0, 7, 0, 0] : Fin 5 → Nat) a + S1x1x1x128x128.size a ≤ S1x8x9x128x128.size a
  inb_S1x8x9x128x128_S1x1x1x128x128_0_0_8_0_0 : ∀ a, (![0, 0, 8, 0, 0] : Fin 5 → Nat) a + S1x1x1x128x128.size a ≤ S1x8x9x128x128.size a
  inb_S1x64x128x128_S1x8x128x128_0_0_0_0 : ∀ a, (![0, 0, 0, 0] : Fin 4 → Nat) a + S1x8x128x128.size a ≤ S1x64x128x128.size a
  shapeCasts_S8x128x128_S1x8x128x128 : S8x128x128.ShapeCasts S1x8x128x128
  inb_S1x64x130x128_S1x8x128x128_0_8_0_0 : ∀ a, (![0, 8, 0, 0] : Fin 4 → Nat) a + S1x8x128x128.size a ≤ S1x64x130x128.size a
  inb_S1x8x9x128x128_S1x1x1x128x128_0_1_0_0_0 : ∀ a, (![0, 1, 0, 0, 0] : Fin 5 → Nat) a + S1x1x1x128x128.size a ≤ S1x8x9x128x128.size a
  inb_S1x8x9x128x128_S1x1x1x128x128_0_1_1_0_0 : ∀ a, (![0, 1, 1, 0, 0] : Fin 5 → Nat) a + S1x1x1x128x128.size a ≤ S1x8x9x128x128.size a
  inb_S1x8x9x128x128_S1x1x1x128x128_0_1_2_0_0 : ∀ a, (![0, 1, 2, 0, 0] : Fin 5 → Nat) a + S1x1x1x128x128.size a ≤ S1x8x9x128x128.size a
  inb_S1x64x130x128_S1x8x128x128_0_8_1_0 : ∀ a, (![0, 8, 1, 0] : Fin 4 → Nat) a + S1x8x128x128.size a ≤ S1x64x130x128.size a
  inb_S1x8x9x128x128_S1x1x1x128x128_0_1_3_0_0 : ∀ a, (![0, 1, 3, 0, 0] : Fin 5 → Nat) a + S1x1x1x128x128.size a ≤ S1x8x9x128x128.size a
  inb_S1x8x9x128x128_S1x1x1x128x128_0_1_4_0_0 : ∀ a, (![0, 1, 4, 0, 0] : Fin 5 → Nat) a + S1x1x1x128x128.size a ≤ S1x8x9x128x128.size a
  inb_S1x8x9x128x128_S1x1x1x128x128_0_1_5_0_0 : ∀ a, (![0, 1, 5, 0, 0] : Fin 5 → Nat) a + S1x1x1x128x128.size a ≤ S1x8x9x128x128.size a
  inb_S1x64x130x128_S1x8x128x128_0_8_2_0 : ∀ a, (![0, 8, 2, 0] : Fin 4 → Nat) a + S1x8x128x128.size a ≤ S1x64x130x128.size a
  inb_S1x8x9x128x128_S1x1x1x128x128_0_1_6_0_0 : ∀ a, (![0, 1, 6, 0, 0] : Fin 5 → Nat) a + S1x1x1x128x128.size a ≤ S1x8x9x128x128.size a
  inb_S1x8x9x128x128_S1x1x1x128x128_0_1_7_0_0 : ∀ a, (![0, 1, 7, 0, 0] : Fin 5 → Nat) a + S1x1x1x128x128.size a ≤ S1x8x9x128x128.size a
  inb_S1x8x9x128x128_S1x1x1x128x128_0_1_8_0_0 : ∀ a, (![0, 1, 8, 0, 0] : Fin 5 → Nat) a + S1x1x1x128x128.size a ≤ S1x8x9x128x128.size a
  inb_S1x64x128x128_S1x8x128x128_0_8_0_0 : ∀ a, (![0, 8, 0, 0] : Fin 4 → Nat) a + S1x8x128x128.size a ≤ S1x64x128x128.size a
  inb_S1x64x130x128_S1x8x128x128_0_16_0_0 : ∀ a, (![0, 16, 0, 0] : Fin 4 → Nat) a + S1x8x128x128.size a ≤ S1x64x130x128.size a
  inb_S1x8x9x128x128_S1x1x1x128x128_0_2_0_0_0 : ∀ a, (![0, 2, 0, 0, 0] : Fin 5 → Nat) a + S1x1x1x128x128.size a ≤ S1x8x9x128x128.size a
  inb_S1x8x9x128x128_S1x1x1x128x128_0_2_1_0_0 : ∀ a, (![0, 2, 1, 0, 0] : Fin 5 → Nat) a + S1x1x1x128x128.size a ≤ S1x8x9x128x128.size a
  inb_S1x8x9x128x128_S1x1x1x128x128_0_2_2_0_0 : ∀ a, (![0, 2, 2, 0, 0] : Fin 5 → Nat) a + S1x1x1x128x128.size a ≤ S1x8x9x128x128.size a
  inb_S1x64x130x128_S1x8x128x128_0_16_1_0 : ∀ a, (![0, 16, 1, 0] : Fin 4 → Nat) a + S1x8x128x128.size a ≤ S1x64x130x128.size a
  inb_S1x8x9x128x128_S1x1x1x128x128_0_2_3_0_0 : ∀ a, (![0, 2, 3, 0, 0] : Fin 5 → Nat) a + S1x1x1x128x128.size a ≤ S1x8x9x128x128.size a
  inb_S1x8x9x128x128_S1x1x1x128x128_0_2_4_0_0 : ∀ a, (![0, 2, 4, 0, 0] : Fin 5 → Nat) a + S1x1x1x128x128.size a ≤ S1x8x9x128x128.size a
  inb_S1x8x9x128x128_S1x1x1x128x128_0_2_5_0_0 : ∀ a, (![0, 2, 5, 0, 0] : Fin 5 → Nat) a + S1x1x1x128x128.size a ≤ S1x8x9x128x128.size a
  inb_S1x64x130x128_S1x8x128x128_0_16_2_0 : ∀ a, (![0, 16, 2, 0] : Fin 4 → Nat) a + S1x8x128x128.size a ≤ S1x64x130x128.size a
  inb_S1x8x9x128x128_S1x1x1x128x128_0_2_6_0_0 : ∀ a, (![0, 2, 6, 0, 0] : Fin 5 → Nat) a + S1x1x1x128x128.size a ≤ S1x8x9x128x128.size a
  inb_S1x8x9x128x128_S1x1x1x128x128_0_2_7_0_0 : ∀ a, (![0, 2, 7, 0, 0] : Fin 5 → Nat) a + S1x1x1x128x128.size a ≤ S1x8x9x128x128.size a
  inb_S1x8x9x128x128_S1x1x1x128x128_0_2_8_0_0 : ∀ a, (![0, 2, 8, 0, 0] : Fin 5 → Nat) a + S1x1x1x128x128.size a ≤ S1x8x9x128x128.size a
  inb_S1x64x128x128_S1x8x128x128_0_16_0_0 : ∀ a, (![0, 16, 0, 0] : Fin 4 → Nat) a + S1x8x128x128.size a ≤ S1x64x128x128.size a
  inb_S1x64x130x128_S1x8x128x128_0_24_0_0 : ∀ a, (![0, 24, 0, 0] : Fin 4 → Nat) a + S1x8x128x128.size a ≤ S1x64x130x128.size a
  inb_S1x8x9x128x128_S1x1x1x128x128_0_3_0_0_0 : ∀ a, (![0, 3, 0, 0, 0] : Fin 5 → Nat) a + S1x1x1x128x128.size a ≤ S1x8x9x128x128.size a
  inb_S1x8x9x128x128_S1x1x1x128x128_0_3_1_0_0 : ∀ a, (![0, 3, 1, 0, 0] : Fin 5 → Nat) a + S1x1x1x128x128.size a ≤ S1x8x9x128x128.size a
  inb_S1x8x9x128x128_S1x1x1x128x128_0_3_2_0_0 : ∀ a, (![0, 3, 2, 0, 0] : Fin 5 → Nat) a + S1x1x1x128x128.size a ≤ S1x8x9x128x128.size a
  inb_S1x64x130x128_S1x8x128x128_0_24_1_0 : ∀ a, (![0, 24, 1, 0] : Fin 4 → Nat) a + S1x8x128x128.size a ≤ S1x64x130x128.size a
  inb_S1x8x9x128x128_S1x1x1x128x128_0_3_3_0_0 : ∀ a, (![0, 3, 3, 0, 0] : Fin 5 → Nat) a + S1x1x1x128x128.size a ≤ S1x8x9x128x128.size a
  inb_S1x8x9x128x128_S1x1x1x128x128_0_3_4_0_0 : ∀ a, (![0, 3, 4, 0, 0] : Fin 5 → Nat) a + S1x1x1x128x128.size a ≤ S1x8x9x128x128.size a
  inb_S1x8x9x128x128_S1x1x1x128x128_0_3_5_0_0 : ∀ a, (![0, 3, 5, 0, 0] : Fin 5 → Nat) a + S1x1x1x128x128.size a ≤ S1x8x9x128x128.size a
  inb_S1x64x130x128_S1x8x128x128_0_24_2_0 : ∀ a, (![0, 24, 2, 0] : Fin 4 → Nat) a + S1x8x128x128.size a ≤ S1x64x130x128.size a
  inb_S1x8x9x128x128_S1x1x1x128x128_0_3_6_0_0 : ∀ a, (![0, 3, 6, 0, 0] : Fin 5 → Nat) a + S1x1x1x128x128.size a ≤ S1x8x9x128x128.size a
  inb_S1x8x9x128x128_S1x1x1x128x128_0_3_7_0_0 : ∀ a, (![0, 3, 7, 0, 0] : Fin 5 → Nat) a + S1x1x1x128x128.size a ≤ S1x8x9x128x128.size a
  inb_S1x8x9x128x128_S1x1x1x128x128_0_3_8_0_0 : ∀ a, (![0, 3, 8, 0, 0] : Fin 5 → Nat) a + S1x1x1x128x128.size a ≤ S1x8x9x128x128.size a
  inb_S1x64x128x128_S1x8x128x128_0_24_0_0 : ∀ a, (![0, 24, 0, 0] : Fin 4 → Nat) a + S1x8x128x128.size a ≤ S1x64x128x128.size a
  inb_S1x64x130x128_S1x8x128x128_0_32_0_0 : ∀ a, (![0, 32, 0, 0] : Fin 4 → Nat) a + S1x8x128x128.size a ≤ S1x64x130x128.size a
  inb_S1x8x9x128x128_S1x1x1x128x128_0_4_0_0_0 : ∀ a, (![0, 4, 0, 0, 0] : Fin 5 → Nat) a + S1x1x1x128x128.size a ≤ S1x8x9x128x128.size a
  inb_S1x8x9x128x128_S1x1x1x128x128_0_4_1_0_0 : ∀ a, (![0, 4, 1, 0, 0] : Fin 5 → Nat) a + S1x1x1x128x128.size a ≤ S1x8x9x128x128.size a
  inb_S1x8x9x128x128_S1x1x1x128x128_0_4_2_0_0 : ∀ a, (![0, 4, 2, 0, 0] : Fin 5 → Nat) a + S1x1x1x128x128.size a ≤ S1x8x9x128x128.size a
  inb_S1x64x130x128_S1x8x128x128_0_32_1_0 : ∀ a, (![0, 32, 1, 0] : Fin 4 → Nat) a + S1x8x128x128.size a ≤ S1x64x130x128.size a
  inb_S1x8x9x128x128_S1x1x1x128x128_0_4_3_0_0 : ∀ a, (![0, 4, 3, 0, 0] : Fin 5 → Nat) a + S1x1x1x128x128.size a ≤ S1x8x9x128x128.size a
  inb_S1x8x9x128x128_S1x1x1x128x128_0_4_4_0_0 : ∀ a, (![0, 4, 4, 0, 0] : Fin 5 → Nat) a + S1x1x1x128x128.size a ≤ S1x8x9x128x128.size a
  inb_S1x8x9x128x128_S1x1x1x128x128_0_4_5_0_0 : ∀ a, (![0, 4, 5, 0, 0] : Fin 5 → Nat) a + S1x1x1x128x128.size a ≤ S1x8x9x128x128.size a
  inb_S1x64x130x128_S1x8x128x128_0_32_2_0 : ∀ a, (![0, 32, 2, 0] : Fin 4 → Nat) a + S1x8x128x128.size a ≤ S1x64x130x128.size a
  inb_S1x8x9x128x128_S1x1x1x128x128_0_4_6_0_0 : ∀ a, (![0, 4, 6, 0, 0] : Fin 5 → Nat) a + S1x1x1x128x128.size a ≤ S1x8x9x128x128.size a
  inb_S1x8x9x128x128_S1x1x1x128x128_0_4_7_0_0 : ∀ a, (![0, 4, 7, 0, 0] : Fin 5 → Nat) a + S1x1x1x128x128.size a ≤ S1x8x9x128x128.size a
  inb_S1x8x9x128x128_S1x1x1x128x128_0_4_8_0_0 : ∀ a, (![0, 4, 8, 0, 0] : Fin 5 → Nat) a + S1x1x1x128x128.size a ≤ S1x8x9x128x128.size a
  inb_S1x64x128x128_S1x8x128x128_0_32_0_0 : ∀ a, (![0, 32, 0, 0] : Fin 4 → Nat) a + S1x8x128x128.size a ≤ S1x64x128x128.size a
  inb_S1x64x130x128_S1x8x128x128_0_40_0_0 : ∀ a, (![0, 40, 0, 0] : Fin 4 → Nat) a + S1x8x128x128.size a ≤ S1x64x130x128.size a
  inb_S1x8x9x128x128_S1x1x1x128x128_0_5_0_0_0 : ∀ a, (![0, 5, 0, 0, 0] : Fin 5 → Nat) a + S1x1x1x128x128.size a ≤ S1x8x9x128x128.size a
  inb_S1x8x9x128x128_S1x1x1x128x128_0_5_1_0_0 : ∀ a, (![0, 5, 1, 0, 0] : Fin 5 → Nat) a + S1x1x1x128x128.size a ≤ S1x8x9x128x128.size a
  inb_S1x8x9x128x128_S1x1x1x128x128_0_5_2_0_0 : ∀ a, (![0, 5, 2, 0, 0] : Fin 5 → Nat) a + S1x1x1x128x128.size a ≤ S1x8x9x128x128.size a
  inb_S1x64x130x128_S1x8x128x128_0_40_1_0 : ∀ a, (![0, 40, 1, 0] : Fin 4 → Nat) a + S1x8x128x128.size a ≤ S1x64x130x128.size a
  inb_S1x8x9x128x128_S1x1x1x128x128_0_5_3_0_0 : ∀ a, (![0, 5, 3, 0, 0] : Fin 5 → Nat) a + S1x1x1x128x128.size a ≤ S1x8x9x128x128.size a
  inb_S1x8x9x128x128_S1x1x1x128x128_0_5_4_0_0 : ∀ a, (![0, 5, 4, 0, 0] : Fin 5 → Nat) a + S1x1x1x128x128.size a ≤ S1x8x9x128x128.size a
  inb_S1x8x9x128x128_S1x1x1x128x128_0_5_5_0_0 : ∀ a, (![0, 5, 5, 0, 0] : Fin 5 → Nat) a + S1x1x1x128x128.size a ≤ S1x8x9x128x128.size a
  inb_S1x64x130x128_S1x8x128x128_0_40_2_0 : ∀ a, (![0, 40, 2, 0] : Fin 4 → Nat) a + S1x8x128x128.size a ≤ S1x64x130x128.size a
  inb_S1x8x9x128x128_S1x1x1x128x128_0_5_6_0_0 : ∀ a, (![0, 5, 6, 0, 0] : Fin 5 → Nat) a + S1x1x1x128x128.size a ≤ S1x8x9x128x128.size a
  inb_S1x8x9x128x128_S1x1x1x128x128_0_5_7_0_0 : ∀ a, (![0, 5, 7, 0, 0] : Fin 5 → Nat) a + S1x1x1x128x128.size a ≤ S1x8x9x128x128.size a
  inb_S1x8x9x128x128_S1x1x1x128x128_0_5_8_0_0 : ∀ a, (![0, 5, 8, 0, 0] : Fin 5 → Nat) a + S1x1x1x128x128.size a ≤ S1x8x9x128x128.size a
  inb_S1x64x128x128_S1x8x128x128_0_40_0_0 : ∀ a, (![0, 40, 0, 0] : Fin 4 → Nat) a + S1x8x128x128.size a ≤ S1x64x128x128.size a
  inb_S1x64x130x128_S1x8x128x128_0_48_0_0 : ∀ a, (![0, 48, 0, 0] : Fin 4 → Nat) a + S1x8x128x128.size a ≤ S1x64x130x128.size a
  inb_S1x8x9x128x128_S1x1x1x128x128_0_6_0_0_0 : ∀ a, (![0, 6, 0, 0, 0] : Fin 5 → Nat) a + S1x1x1x128x128.size a ≤ S1x8x9x128x128.size a
  inb_S1x8x9x128x128_S1x1x1x128x128_0_6_1_0_0 : ∀ a, (![0, 6, 1, 0, 0] : Fin 5 → Nat) a + S1x1x1x128x128.size a ≤ S1x8x9x128x128.size a
  inb_S1x8x9x128x128_S1x1x1x128x128_0_6_2_0_0 : ∀ a, (![0, 6, 2, 0, 0] : Fin 5 → Nat) a + S1x1x1x128x128.size a ≤ S1x8x9x128x128.size a
  inb_S1x64x130x128_S1x8x128x128_0_48_1_0 : ∀ a, (![0, 48, 1, 0] : Fin 4 → Nat) a + S1x8x128x128.size a ≤ S1x64x130x128.size a
  inb_S1x8x9x128x128_S1x1x1x128x128_0_6_3_0_0 : ∀ a, (![0, 6, 3, 0, 0] : Fin 5 → Nat) a + S1x1x1x128x128.size a ≤ S1x8x9x128x128.size a
  inb_S1x8x9x128x128_S1x1x1x128x128_0_6_4_0_0 : ∀ a, (![0, 6, 4, 0, 0] : Fin 5 → Nat) a + S1x1x1x128x128.size a ≤ S1x8x9x128x128.size a
  inb_S1x8x9x128x128_S1x1x1x128x128_0_6_5_0_0 : ∀ a, (![0, 6, 5, 0, 0] : Fin 5 → Nat) a + S1x1x1x128x128.size a ≤ S1x8x9x128x128.size a
  inb_S1x64x130x128_S1x8x128x128_0_48_2_0 : ∀ a, (![0, 48, 2, 0] : Fin 4 → Nat) a + S1x8x128x128.size a ≤ S1x64x130x128.size a
  inb_S1x8x9x128x128_S1x1x1x128x128_0_6_6_0_0 : ∀ a, (![0, 6, 6, 0, 0] : Fin 5 → Nat) a + S1x1x1x128x128.size a ≤ S1x8x9x128x128.size a
  inb_S1x8x9x128x128_S1x1x1x128x128_0_6_7_0_0 : ∀ a, (![0, 6, 7, 0, 0] : Fin 5 → Nat) a + S1x1x1x128x128.size a ≤ S1x8x9x128x128.size a
  inb_S1x8x9x128x128_S1x1x1x128x128_0_6_8_0_0 : ∀ a, (![0, 6, 8, 0, 0] : Fin 5 → Nat) a + S1x1x1x128x128.size a ≤ S1x8x9x128x128.size a
  inb_S1x64x128x128_S1x8x128x128_0_48_0_0 : ∀ a, (![0, 48, 0, 0] : Fin 4 → Nat) a + S1x8x128x128.size a ≤ S1x64x128x128.size a
  inb_S1x64x130x128_S1x8x128x128_0_56_0_0 : ∀ a, (![0, 56, 0, 0] : Fin 4 → Nat) a + S1x8x128x128.size a ≤ S1x64x130x128.size a
  inb_S1x8x9x128x128_S1x1x1x128x128_0_7_0_0_0 : ∀ a, (![0, 7, 0, 0, 0] : Fin 5 → Nat) a + S1x1x1x128x128.size a ≤ S1x8x9x128x128.size a
  inb_S1x8x9x128x128_S1x1x1x128x128_0_7_1_0_0 : ∀ a, (![0, 7, 1, 0, 0] : Fin 5 → Nat) a + S1x1x1x128x128.size a ≤ S1x8x9x128x128.size a
  inb_S1x8x9x128x128_S1x1x1x128x128_0_7_2_0_0 : ∀ a, (![0, 7, 2, 0, 0] : Fin 5 → Nat) a + S1x1x1x128x128.size a ≤ S1x8x9x128x128.size a
  inb_S1x64x130x128_S1x8x128x128_0_56_1_0 : ∀ a, (![0, 56, 1, 0] : Fin 4 → Nat) a + S1x8x128x128.size a ≤ S1x64x130x128.size a
  inb_S1x8x9x128x128_S1x1x1x128x128_0_7_3_0_0 : ∀ a, (![0, 7, 3, 0, 0] : Fin 5 → Nat) a + S1x1x1x128x128.size a ≤ S1x8x9x128x128.size a
  inb_S1x8x9x128x128_S1x1x1x128x128_0_7_4_0_0 : ∀ a, (![0, 7, 4, 0, 0] : Fin 5 → Nat) a + S1x1x1x128x128.size a ≤ S1x8x9x128x128.size a
  inb_S1x8x9x128x128_S1x1x1x128x128_0_7_5_0_0 : ∀ a, (![0, 7, 5, 0, 0] : Fin 5 → Nat) a + S1x1x1x128x128.size a ≤ S1x8x9x128x128.size a
  inb_S1x64x130x128_S1x8x128x128_0_56_2_0 : ∀ a, (![0, 56, 2, 0] : Fin 4 → Nat) a + S1x8x128x128.size a ≤ S1x64x130x128.size a
  inb_S1x8x9x128x128_S1x1x1x128x128_0_7_6_0_0 : ∀ a, (![0, 7, 6, 0, 0] : Fin 5 → Nat) a + S1x1x1x128x128.size a ≤ S1x8x9x128x128.size a
  inb_S1x8x9x128x128_S1x1x1x128x128_0_7_7_0_0 : ∀ a, (![0, 7, 7, 0, 0] : Fin 5 → Nat) a + S1x1x1x128x128.size a ≤ S1x8x9x128x128.size a
  inb_S1x8x9x128x128_S1x1x1x128x128_0_7_8_0_0 : ∀ a, (![0, 7, 8, 0, 0] : Fin 5 → Nat) a + S1x1x1x128x128.size a ≤ S1x8x9x128x128.size a
  inb_S1x64x128x128_S1x8x128x128_0_56_0_0 : ∀ a, (![0, 56, 0, 0] : Fin 4 → Nat) a + S1x8x128x128.size a ≤ S1x64x128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x130x128.size a ≤ S8x64x130x128.size a
  hwx0_0 : ∀ i : grid0.Coords, EltTy.bits .f32 = 32 ∨ (Rect.block (s := S8x64x130x128) S1x64x130x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x9x128x128.size a ≤ S8x8x9x128x128.size a
  hwx0_1 : ∀ i : grid0.Coords, EltTy.bits .f32 = 32 ∨ (Rect.block (s := S8x8x9x128x128) S1x8x9x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S8x64x128x128.size a
  hwx0_2 : ∀ i : grid0.Coords, EltTy.bits .f32 = 32 ∨ (Rect.block (s := S8x64x128x128) S1x64x128x128.size (cc0_transform_2 i) (hinb0_2 i)).WholeWords (EltTy.packing .f32)

variable [Facts₀]

abbrev win0_0 : Pipeline.Window sig grid0 :=
  Pipeline.Window.ofSpec (Memref.whole main_v0) S1x64x130x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x9x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x128x128 : Shape := ⟨4, ![8, 64, 128, 128]⟩
abbrev S8x8x1x9x128x128 : Shape := ⟨6, ![8, 8, 1, 9, 128, 128]⟩
abbrev S_ : Shape := ⟨0, ![]⟩
abbrev S8x64x130x130 : Shape := ⟨4, ![8, 64, 130, 130]⟩
abbrev S8x8x8x130x130 : Shape := ⟨5, ![8, 8, 8, 130, 130]⟩
abbrev S8x8x8x128x128 : Shape := ⟨5, ![8, 8, 8, 128, 128]⟩
abbrev S8x8x1x1x128x128 : Shape := ⟨6, ![8, 8, 1, 1, 128, 128]⟩
abbrev S8x8x1x128x128 : Shape := ⟨5, ![8, 8, 1, 128, 128]⟩

abbrev nBuf : Space → Nat
  | .hbm => 63
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S8x8x1x9x128x128, .f32⟩
  | .hbm, ⟨2, _⟩ => ⟨S_, .i32⟩
  | .hbm, ⟨3, _⟩ => ⟨S_, .f32⟩
  | .hbm, ⟨4, _⟩ => ⟨S8x64x130x130, .f32⟩
  | .hbm, ⟨5, _⟩ => ⟨S8x8x8x130x130, .f32⟩
  | .hbm, ⟨6, _⟩ => ⟨S_, .f32⟩
  | .hbm, ⟨7, _⟩ => ⟨S8x8x8x128x128, .f32⟩
  | .hbm, ⟨8, _⟩ => ⟨S8x8x8x128x128, .f32⟩
  | .hbm, ⟨9, _⟩ => ⟨S8x8x1x1x128x128, .f32⟩
  | .hbm, ⟨10, _⟩ => ⟨S8x8x1x128x128, .f32⟩
  | .hbm, ⟨11, _⟩ => ⟨S8x8x8x128x128, .f32⟩
  | .hbm, ⟨12, _⟩ => ⟨S8x8x8x128x128, .f32⟩
  | .hbm, ⟨13, _⟩ => ⟨S8x8x8x128x128, .f32⟩
  | .hbm, ⟨14, _⟩ => ⟨S8x8x8x128x128, .f32⟩
  | .hbm, ⟨15, _⟩ => ⟨S8x8x1x1x128x128, .f32⟩
  | .hbm, ⟨16, _⟩ => ⟨S8x8x1x128x128, .f32⟩
  | .hbm, ⟨17, _⟩ => ⟨S8x8x8x128x128, .f32⟩
  | .hbm, ⟨18, _⟩ => ⟨S8x8x8x128x128, .f32⟩
  | .hbm, ⟨19, _⟩ => ⟨S8x8x8x128x128, .f32⟩
  | .hbm, ⟨20, _⟩ => ⟨S8x8x8x128x128, .f32⟩
  | .hbm, ⟨21, _⟩ => ⟨S8x8x1x1x128x128, .f32⟩
  | .hbm, ⟨22, _⟩ => ⟨S8x8x1x128x128, .f32⟩
  | .hbm, ⟨23, _⟩ => ⟨S8x8x8x128x128, .f32⟩
  | .hbm, ⟨24, _⟩ => ⟨S8x8x8x128x128, .f32⟩
  | .hbm, ⟨25, _⟩ => ⟨S8x8x8x128x128, .f32⟩
  | .hbm, ⟨26, _⟩ => ⟨S8x8x8x128x128, .f32⟩
  | .hbm, ⟨27, _⟩ => ⟨S8x8x1x1x128x128, .f32⟩
  | .hbm, ⟨28, _⟩ => ⟨S8x8x1x128x128, .f32⟩
  | .hbm, ⟨29, _⟩ => ⟨S8x8x8x128x128, .f32⟩
  | .hbm, ⟨30, _⟩ => ⟨S8x8x8x128x128, .f32⟩
  | .hbm, ⟨31, _⟩ => ⟨S8x8x8x128x128, .f32⟩
  | .hbm, ⟨32, _⟩ => ⟨S8x8x8x128x128, .f32⟩
  | .hbm, ⟨33, _⟩ => ⟨S8x8x1x1x128x128, .f32⟩
  | .hbm, ⟨34, _⟩ => ⟨S8x8x1x128x128, .f32⟩
  | .hbm, ⟨35, _⟩ => ⟨S8x8x8x128x128, .f32⟩
  | .hbm, ⟨36, _⟩ => ⟨S8x8x8x128x128, .f32⟩
  | .hbm, ⟨37, _⟩ => ⟨S8x8x8x128x128, .f32⟩
  | .hbm, ⟨38, _⟩ => ⟨S8x8x8x128x128, .f32⟩
  | .hbm, ⟨39, _⟩ => ⟨S8x8x1x1x128x128, .f32⟩
  | .hbm, ⟨40, _⟩ => ⟨S8x8x1x128x128, .f32⟩
  | .hbm, ⟨41, _⟩ => ⟨S8x8x8x128x128, .f32⟩
  | .hbm, ⟨42, _⟩ => ⟨S8x8x8x128x128, .f32⟩
  | .hbm, ⟨43, _⟩ => ⟨S8x8x8x128x128, .f32⟩
  | .hbm, ⟨44, _⟩ => ⟨S8x8x8x128x128, .f32⟩
  | .hbm, ⟨45, _⟩ => ⟨S8x8x1x1x128x128, .f32⟩
  | .hbm, ⟨46, _⟩ => ⟨S8x8x1x128x128, .f32⟩
  | .hbm, ⟨47, _⟩ => ⟨S8x8x8x128x128, .f32⟩
  | .hbm, ⟨48, _⟩ => ⟨S8x8x8x128x128, .f32⟩
  | .hbm, ⟨49, _⟩ => ⟨S8x8x8x128x128, .f32⟩
  | .hbm, ⟨50, _⟩ => ⟨S8x8x8x128x128, .f32⟩
  | .hbm, ⟨51, _⟩ => ⟨S8x8x1x1x128x128, .f32⟩
  | .hbm, ⟨52, _⟩ => ⟨S8x8x1x128x128, .f32⟩
  | .hbm, ⟨53, _⟩ => ⟨S8x8x8x128x128, .f32⟩
  | .hbm, ⟨54, _⟩ => ⟨S8x8x8x128x128, .f32⟩
  | .hbm, ⟨55, _⟩ => ⟨S8x8x8x128x128, .f32⟩
  | .hbm, ⟨56, _⟩ => ⟨S8x8x8x128x128, .f32⟩
  | .hbm, ⟨57, _⟩ => ⟨S8x8x1x1x128x128, .f32⟩
  | .hbm, ⟨58, _⟩ => ⟨S8x8x1x128x128, .f32⟩
  | .hbm, ⟨59, _⟩ => ⟨S8x8x8x128x128, .f32⟩
  | .hbm, ⟨60, _⟩ => ⟨S8x8x8x128x128, .f32⟩
  | .hbm, ⟨61, _⟩ => ⟨S8x8x8x128x128, .f32⟩
  | .hbm, ⟨62, _⟩ => ⟨S8x64x128x128, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩

abbrev nD : Nat := 1
abbrev τ : Topo := Topo.v7x

variable {F : FTy → Type} [FloatOps F]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  shapeCasts_S8x64x130x130_S8x8x8x130x130 : S8x64x130x130.ShapeCasts S8x8x8x130x130
  bcast_S_S8x8x8x128x128 : S_.BroadcastsInDim S8x8x8x128x128 (![] : Fin 0 → Fin S8x8x8x128x128.rank)
  slices_S8x8x8x130x130_S8x8x8x128x128_0_0_0_0_0 : S8x8x8x130x130.Slices ![0, 0, 0, 0, 0] S8x8x8x128x128
  slices_S8x8x1x9x128x128_S8x8x1x1x128x128_0_0_0_0_0_0 : S8x8x1x9x128x128.Slices ![0, 0, 0, 0, 0, 0] S8x8x1x1x128x128
  shapeCasts_S8x8x1x1x128x128_S8x8x1x128x128 : S8x8x1x1x128x128.ShapeCasts S8x8x1x128x128
  bcast_S8x8x1x128x128_S8x8x8x128x128_0_1_2_3_4 : S8x8x1x128x128.BroadcastsInDim S8x8x8x128x128 (![0, 1, 2, 3, 4] : Fin 5 → Fin S8x8x8x128x128.rank)
  slices_S8x8x8x130x130_S8x8x8x128x128_0_0_0_0_1 : S8x8x8x130x130.Slices ![0, 0, 0, 0, 1] S8x8x8x128x128
  slices_S8x8x1x9x128x128_S8x8x1x1x128x128_0_0_0_1_0_0 : S8x8x1x9x128x128.Slices ![0, 0, 0, 1, 0, 0] S8x8x1x1x128x128
  slices_S8x8x8x130x130_S8x8x8x128x128_0_0_0_0_2 : S8x8x8x130x130.Slices ![0, 0, 0, 0, 2] S8x8x8x128x128
  slices_S8x8x1x9x128x128_S8x8x1x1x128x128_0_0_0_2_0_0 : S8x8x1x9x128x128.Slices ![0, 0, 0, 2, 0, 0] S8x8x1x1x128x128
  slices_S8x8x8x130x130_S8x8x8x128x128_0_0_0_1_0 : S8x8x8x130x130.Slices ![0, 0, 0, 1, 0] S8x8x8x128x128
  slices_S8x8x1x9x128x128_S8x8x1x1x128x128_0_0_0_3_0_0 : S8x8x1x9x128x128.Slices ![0, 0, 0, 3, 0, 0] S8x8x1x1x128x128
  slices_S8x8x8x130x130_S8x8x8x128x128_0_0_0_1_1 : S8x8x8x130x130.Slices ![0, 0, 0, 1, 1] S8x8x8x128x128
  slices_S8x8x1x9x128x128_S8x8x1x1x128x128_0_0_0_4_0_0 : S8x8x1x9x128x128.Slices ![0, 0, 0, 4, 0, 0] S8x8x1x1x128x128
  slices_S8x8x8x130x130_S8x8x8x128x128_0_0_0_1_2 : S8x8x8x130x130.Slices ![0, 0, 0, 1, 2] S8x8x8x128x128
  slices_S8x8x1x9x128x128_S8x8x1x1x128x128_0_0_0_5_0_0 : S8x8x1x9x128x128.Slices ![0, 0, 0, 5, 0, 0] S8x8x1x1x128x128
  slices_S8x8x8x130x130_S8x8x8x128x128_0_0_0_2_0 : S8x8x8x130x130.Slices ![0, 0, 0, 2, 0] S8x8x8x128x128
  slices_S8x8x1x9x128x128_S8x8x1x1x128x128_0_0_0_6_0_0 : S8x8x1x9x128x128.Slices ![0, 0, 0, 6, 0, 0] S8x8x1x1x128x128
  slices_S8x8x8x130x130_S8x8x8x128x128_0_0_0_2_1 : S8x8x8x130x130.Slices ![0, 0, 0, 2, 1] S8x8x8x128x128
  slices_S8x8x1x9x128x128_S8x8x1x1x128x128_0_0_0_7_0_0 : S8x8x1x9x128x128.Slices ![0, 0, 0, 7, 0, 0] S8x8x1x1x128x128
  slices_S8x8x8x130x130_S8x8x8x128x128_0_0_0_2_2 : S8x8x8x130x130.Slices ![0, 0, 0, 2, 2] S8x8x8x128x128
  slices_S8x8x1x9x128x128_S8x8x1x1x128x128_0_0_0_8_0_0 : S8x8x1x9x128x128.Slices ![0, 0, 0, 8, 0, 0] S8x8x1x1x128x128
  shapeCasts_S8x8x8x128x128_S8x64x128x128 : S8x8x8x128x128.ShapeCasts S8x64x128x128

variable [Facts₀]

class Facts : Prop extends Facts₀ where

variable [Facts]
-- ==== Proof.Stencil.lean ====
/-
  A 3×3 neighbourhood aggregation with per-pixel weights, the weights shared by the eight channels of a group.
  For a batch entry b, a channel c (in group c / 8), a row h and a column w,

      out[b, c, h, w] = Σ over the nine taps k = 3·ki + kj (ki, kj ∈ {0, 1, 2}) of
                          xz[b, c, h + ki, w + kj] · wt[b, c / 8, 0, k, h, w],

  where xz is the plane x[b, c] bordered by one ring of zeros (130 × 130), and the nine products are added in the
  order of the taps onto a leading zero. Both programs add in exactly this order, so no law of arithmetic is used:
  the two sides are the same expression of the same entries.
-/
import Idealize.ShloMosaic.PureOps.Ideal.Laws
import Idealize.ShloMosaic.Lib.ValueIdx
import Idealize.ShloMosaic.Lib.ValueIdxRank6

noncomputable section

namespace Cert.Agg

open Idealize.ShloMosaic Idealize.ShloMosaic.ValueIdx

/-- The plane `x[b, c]` bordered by one ring of zeros, read at bordered coordinates `(i, j)` of `[0, 130)²`: entry
    `(i − 1, j − 1)` of the plane inside the ring, zero on the ring (and anywhere further out). -/
def ringed (x : (⟨4, ![8, 64, 128, 128]⟩ : Shape).Idx → EReal) (b : Fin 8) (c : Fin 64) (i j : ℕ) : EReal :=
  if hij : (1 ≤ i ∧ i ≤ 128) ∧ (1 ≤ j ∧ j ≤ 128) then x (ix4 b c ⟨i - 1, by omega⟩ ⟨j - 1, by omega⟩) else 0

/-- Inside the ring. -/
theorem ringed_of_inside (x : (⟨4, ![8, 64, 128, 128]⟩ : Shape).Idx → EReal) (b : Fin 8) (c : Fin 64) (i j : ℕ)
    (p : Fin 128) (q : Fin 128) (hi : i = p.val + 1) (hj : j = q.val + 1) : ringed x b c i j = x (ix4 b c p q) := by
  subst hi hj
  have hp := p.isLt
  have hq := q.isLt
  unfold ringed
  rw [dif_pos ⟨⟨by omega, by omega⟩, ⟨by omega, by omega⟩⟩]
  rfl

/-- On the ring. -/
theorem ringed_of_outside (x : (⟨4, ![8, 64, 128, 128]⟩ : Shape).Idx → EReal) (b : Fin 8) (c : Fin 64) (i j : ℕ)
    (h : ¬((1 ≤ i ∧ i ≤ 128) ∧ (1 ≤ j ∧ j ≤ 128))) : ringed x b c i j = 0 := by
  unfold ringed
  rw [dif_neg h]

/-- The weight of tap `k` at pixel `(h, w)`, for group `g` of batch entry `b`. -/
abbrev tapWeight (wt : (⟨6, ![8, 8, 1, 9, 128, 128]⟩ : Shape).Idx → EReal) (b : Fin 8) (g : Fin 8) (k : Fin 9) (h w : Fin 128) : EReal :=
  wt (ix6 b g (0 : Fin 1) k h w)

/-- The aggregate at channel `cc` of group `g`: the nine weighted taps added in order onto a leading zero. -/
def agg (x : (⟨4, ![8, 64, 128, 128]⟩ : Shape).Idx → EReal) (wt : (⟨6, ![8, 8, 1, 9, 128, 128]⟩ : Shape).Idx → EReal)
    (b : Fin 8) (g : Fin 8) (cc : Fin 8) (h w : Fin 128) : EReal :=
  Ideal.ofBits .f32 0x00000000#32
    + ringed x b ⟨8 * g.val + cc.val, by omega⟩ (h.val + 0) (w.val + 0) * tapWeight wt b g 0 h w
    + ringed x b ⟨8 * g.val + cc.val, by omega⟩ (h.val + 0) (w.val + 1) * tapWeight wt b g 1 h w
    + ringed x b ⟨8 * g.val + cc.val, by omega⟩ (h.val + 0) (w.val + 2) * tapWeight wt b g 2 h w
    + ringed x b ⟨8 * g.val + cc.val, by omega⟩ (h.val + 1) (w.val + 0) * tapWeight wt b g 3 h w
    + ringed x b ⟨8 * g.val + cc.val, by omega⟩ (h.val + 1) (w.val + 1) * tapWeight wt b g 4 h w
    + ringed x b ⟨8 * g.val + cc.val, by omega⟩ (h.val + 1) (w.val + 2) * tapWeight wt b g 5 h w
    + ringed x b ⟨8 * g.val + cc.val, by omega⟩ (h.val + 2) (w.val + 0) * tapWeight wt b g 6 h w
    + ringed x b ⟨8 * g.val + cc.val, by omega⟩ (h.val + 2) (w.val + 1) * tapWeight wt b g 7 h w
    + ringed x b ⟨8 * g.val + cc.val, by omega⟩ (h.val + 2) (w.val + 2) * tapWeight wt b g 8 h w

/-- The whole result array: at `(b, c, h, w)` the aggregate at channel `c % 8` of group `c / 8`. -/
def result (x : (⟨4, ![8, 64, 128, 128]⟩ : Shape).Idx → EReal) (wt : (⟨6, ![8, 8, 1, 9, 128, 128]⟩ : Shape).Idx → EReal) :
    (⟨4, ![8, 64, 128, 128]⟩ : Shape).Idx → EReal := fun i =>
  agg x wt (i 0) ⟨(i 1).val / 8, by have h1 : (i 1).val < 64 := (i 1).isLt; omega⟩ ⟨(i 1).val % 8, by omega⟩ (i 2) (i 3)

/-- At channel `8·g + cc` the result is the aggregate of `(g, cc)`. -/
theorem result_apply (x : (⟨4, ![8, 64, 128, 128]⟩ : Shape).Idx → EReal) (wt : (⟨6, ![8, 8, 1, 9, 128, 128]⟩ : Shape).Idx → EReal)
    (b : Fin 8) (g : Fin 8) (cc : Fin 8) (h w : Fin 128) (c : Fin 64) (hc : c.val = 8 * g.val + cc.val) :
    result x wt (ix4 b c h w) = agg x wt b g cc h w := by
  have hg : (⟨c.val / 8, by have := c.isLt; omega⟩ : Fin 8) = g := Fin.ext (by show c.val / 8 = g.val; have := cc.isLt; omega)
  have hcc : (⟨c.val % 8, by omega⟩ : Fin 8) = cc := Fin.ext (by show c.val % 8 = cc.val; have := cc.isLt; omega)
  show agg x wt b ⟨c.val / 8, _⟩ ⟨c.val % 8, _⟩ h w = _
  rw [hg, hcc]

end Cert.Agg

end
-- ==== Proof.RefValue.lean ====
/-
  The reference program computes the 3×3 neighbourhood aggregation of Stencil.lean.

  It borders every plane x[b, c] with one ring of zeros (130 × 130), regroups the 64 channels as 8 groups of 8, and
  then nine times, for the taps k = 3·ki + kj in order: cuts the 128 × 128 window of the bordered planes at offsets
  (ki, kj), cuts tap k out of the weights, drops the unit tap axis, lays the tap over the eight channels of its group,
  multiplies, and adds the product onto the running sum, which starts as the zero constant. Last it ungroups the
  channels again. Read at one index each stage is one entry of its operand, so the result at (b, 8·g + cc, h, w) is the
  zero constant plus the nine products ringed(h + ki, w + kj) · weight(k, h, w), added in the order of the taps: the
  same expression as the aggregate, and the two are equal with no law of arithmetic.

  The padding value is the integer zero converted to a float, which is the zero of the extended reals. The reshapes
  are read by row-major position: (b, 8·g + cc, i, j) of [8, 64, n, n] and (b, g, cc, i, j) of [8, 8, 8, n, n] have the
  same position, and so have (b, g, 0, 0, h, w) of [8, 8, 1, 1, 128, 128] and (b, g, 0, h, w) of [8, 8, 1, 128, 128].
-/
import proofs.«100947_j30545807409744_1_alg».proof.Proof.RefRead
import proofs.«100947_j30545807409744_1_alg».proof.Proof.Stencil
import Idealize.ShloMosaic.Lib.Pipeline.Value
import Idealize.ShloMosaic.Lib.KernelVsHost
import Idealize.ShloMosaic.Lib.ValueIdx
import Idealize.ShloMosaic.Lib.ValueIdxRank6

noncomputable section

namespace Cert.ReferenceIdeal.RefValue

open Cert.ReferenceIdeal.ReadP

open Cert.ReferenceIdeal Cert.ReferenceIdeal.Gen Idealize.ShloMosaic Idealize.ShloMosaic.ValueIdx Idealize.ShloMosaic.StableHlo

/-! ## The bordered array -/

/-- The padded array at (b, c, i, j) of [8, 64, 130, 130] is the plane x[b, c] with its ring of zeros, at (i, j):
    inside the ring the pad reads the operand one step back on both axes, on the ring it reads the padding value, the
    converted integer zero. -/
theorem padded_read (x0 : FVec Ideal S8x64x128x128 .f32) (b : Fin 8) (c : Fin 64) (i j : Fin 130) :
    val_main_v0 (F := Ideal) x0 (ix4 b c i j) = Cert.Agg.ringed x0 b c i.val j.val := by
  have hi := i.isLt
  have hj := j.isLt
  unfold val_main_v0
  by_cases hij : (1 ≤ i.val ∧ i.val ≤ 128) ∧ (1 ≤ j.val ∧ j.val ≤ 128)
  · obtain ⟨⟨hi1, hi2⟩, hj1, hj2⟩ := hij
    rw [Cert.Agg.ringed_of_inside x0 b c i.val j.val ⟨i.val - 1, by omega⟩ ⟨j.val - 1, by omega⟩
      (by show i.val = i.val - 1 + 1; omega) (by show j.val = j.val - 1 + 1; omega)]
    exact pad_apply_of_inside ![0, 0, 1, 1] ![0, 0, 1, 1] ![0, 0, 0, 0] x0 (val_main_call0_v0 (F := Ideal))
      pads_S8x64x128x128_S8x64x130x130_000_000_110_110 h_S_ (ix4 b c i j)
      (ix4 b c (⟨i.val - 1, by omega⟩ : Fin 128) (⟨j.val - 1, by omega⟩ : Fin 128)) (fun a => match a with
        | ⟨0, _⟩ => by show b.val = 0 + b.val * (0 + 1); omega
        | ⟨1, _⟩ => by show c.val = 0 + c.val * (0 + 1); omega
        | ⟨2, _⟩ => by show i.val = 1 + (i.val - 1) * (0 + 1); omega
        | ⟨3, _⟩ => by show j.val = 1 + (j.val - 1) * (0 + 1); omega)
  · rw [Cert.Agg.ringed_of_outside x0 b c i.val j.val hij]
    have hzero : val_main_call0_v0 (F := Ideal) (Shape.Idx.first h_S_) = 0 := by
      rw [val_main_call0_v0_apply, val_main_c_apply]
      exact sitofp_zero (φ := .f32)
    by_cases hi' : 1 ≤ i.val ∧ i.val ≤ 128
    · have hj' : ¬(1 ≤ j.val ∧ j.val ≤ 128) := fun h => hij ⟨hi', h⟩
      rw [pad_apply_of_not_inside ![0, 0, 1, 1] ![0, 0, 1, 1] ![0, 0, 0, 0] x0 (val_main_call0_v0 (F := Ideal))
        pads_S8x64x128x128_S8x64x130x130_000_000_110_110 h_S_ (ix4 b c i j) ⟨3, by decide⟩
        (by show ¬(1 ≤ j.val ∧ (j.val - 1) % (0 + 1) = 0 ∧ (j.val - 1) / (0 + 1) < 128); omega)]
      exact hzero
    · rw [pad_apply_of_not_inside ![0, 0, 1, 1] ![0, 0, 1, 1] ![0, 0, 0, 0] x0 (val_main_call0_v0 (F := Ideal))
        pads_S8x64x128x128_S8x64x130x130_000_000_110_110 h_S_ (ix4 b c i j) ⟨2, by decide⟩
        (by show ¬(1 ≤ i.val ∧ (i.val - 1) % (0 + 1) = 0 ∧ (i.val - 1) / (0 + 1) < 128); omega)]
      exact hzero

/-- The padded array with its 64 channels regrouped as 8 groups of 8: channel cc of group g is channel 8·g + cc. -/
theorem grouped_read (x0 : FVec Ideal S8x64x128x128 .f32) (b : Fin 8) (g : Fin 8) (cc : Fin 8) (i j : Fin 130) :
    val_main_v1 (F := Ideal) x0 (ix5 b g cc i j)
      = Cert.Agg.ringed x0 b ⟨8 * g.val + cc.val, by omega⟩ i.val j.val := by
  have hb := b.isLt
  have hg := g.isLt
  have hcc := cc.isLt
  have hi := i.isLt
  have hj := j.isLt
  rw [← padded_read x0 b ⟨8 * g.val + cc.val, by omega⟩ i j]
  unfold val_main_v1
  generalize val_main_v0 (F := Ideal) x0 = y
  exact shapeCast_apply y shapeCasts_S8x64x130x130_S8x8x8x130x130 (ix5 b g cc i j)
    (ix4 b (⟨8 * g.val + cc.val, by omega⟩ : Fin 64) i j)
    (by rewrite [Shape.rowMajor_val_four, Shape.rowMajor_val_five]
        show ((b.val * 64 + (8 * g.val + cc.val)) * 130 + i.val) * 130 + j.val
          = (((b.val * 8 + g.val) * 8 + cc.val) * 130 + i.val) * 130 + j.val
        omega)

/-- A 128 × 128 window of the bordered planes at offsets (ki, kj), read at pixel (h, w). -/
theorem window_read (x0 : FVec Ideal S8x64x128x128 .f32) (ki kj : ℕ) (hki : ki ≤ 2) (hkj : kj ≤ 2)
    (hs : S8x8x8x130x130.Slices ![0, 0, 0, ki, kj] S8x8x8x128x128)
    (b : Fin 8) (g : Fin 8) (cc : Fin 8) (h w : Fin 128) :
    extractStridedSlice S8x8x8x128x128 ![0, 0, 0, ki, kj] (val_main_v1 (F := Ideal) x0) hs (ix5 b g cc h w)
      = Cert.Agg.ringed x0 b ⟨8 * g.val + cc.val, by omega⟩ (h.val + ki) (w.val + kj) := by
  have hh := h.isLt
  have hw := w.isLt
  rw [extractStridedSlice_apply ![0, 0, 0, ki, kj] (val_main_v1 (F := Ideal) x0) hs (ix5 b g cc h w)
    (ix5 b g cc (⟨h.val + ki, by omega⟩ : Fin 130) (⟨w.val + kj, by omega⟩ : Fin 130)) (fun a => match a with
      | ⟨0, _⟩ => by show b.val = 0 + b.val; omega
      | ⟨1, _⟩ => by show g.val = 0 + g.val; omega
      | ⟨2, _⟩ => by show cc.val = 0 + cc.val; omega
      | ⟨3, _⟩ => by show h.val + ki = ki + h.val; omega
      | ⟨4, _⟩ => by show w.val + kj = kj + w.val; omega)]
  exact grouped_read x0 b g cc _ _

/-! ## A tap's weights -/

/-- Tap k of the weights, cut out, its unit tap axis dropped and the result laid over the eight channels of each group,
    read at (b, g, cc, h, w): the weight of tap k at the pixel, whatever the channel. -/
theorem tap_read (x1 : FVec Ideal S8x8x1x9x128x128 .f32) (k : ℕ) (hk : k < 9)
    (hs : S8x8x1x9x128x128.Slices ![0, 0, 0, k, 0, 0] S8x8x1x1x128x128)
    (b : Fin 8) (g : Fin 8) (cc : Fin 8) (h w : Fin 128) :
    broadcastInDim S8x8x8x128x128 ![0, 1, 2, 3, 4] bcast_S8x8x1x128x128_S8x8x8x128x128_0_1_2_3_4
        (shapeCast S8x8x1x128x128 (extractStridedSlice S8x8x1x1x128x128 ![0, 0, 0, k, 0, 0] x1 hs)
          shapeCasts_S8x8x1x1x128x128_S8x8x1x128x128) (ix5 b g cc h w)
      = Cert.Agg.tapWeight x1 b g ⟨k, hk⟩ h w := by
  have hb := b.isLt
  have hg := g.isLt
  have hh := h.isLt
  have hw := w.isLt
  rw [broadcastInDim_apply _ bcast_S8x8x1x128x128_S8x8x8x128x128_0_1_2_3_4 _ (ix5 b g cc h w)
    (ix5 b g (0 : Fin 1) h w) (fun a => match a with
      | ⟨0, _⟩ => by show b.val = if (8 : Nat) = 1 then 0 else b.val; rw [if_neg (by decide)]
      | ⟨1, _⟩ => by show g.val = if (8 : Nat) = 1 then 0 else g.val; rw [if_neg (by decide)]
      | ⟨2, _⟩ => by show 0 = if (1 : Nat) = 1 then 0 else cc.val; rw [if_pos rfl]
      | ⟨3, _⟩ => by show h.val = if (128 : Nat) = 1 then 0 else h.val; rw [if_neg (by decide)]
      | ⟨4, _⟩ => by show w.val = if (128 : Nat) = 1 then 0 else w.val; rw [if_neg (by decide)])]
  rw [shapeCast_apply _ shapeCasts_S8x8x1x1x128x128_S8x8x1x128x128 (ix5 b g (0 : Fin 1) h w)
    (ix6 b g (0 : Fin 1) (0 : Fin 1) h w)
    (by rewrite [Shape.rowMajor_val_six, Shape.rowMajor_val_five]
        show ((((b.val * 8 + g.val) * 1 + 0) * 1 + 0) * 128 + h.val) * 128 + w.val
          = (((b.val * 8 + g.val) * 1 + 0) * 128 + h.val) * 128 + w.val
        omega)]
  exact extractStridedSlice_apply ![0, 0, 0, k, 0, 0] x1 hs (ix6 b g (0 : Fin 1) (0 : Fin 1) h w)
    (ix6 b g (0 : Fin 1) (⟨k, hk⟩ : Fin 9) h w) (fun a => match a with
      | ⟨0, _⟩ => by show b.val = 0 + b.val; omega
      | ⟨1, _⟩ => by show g.val = 0 + g.val; omega
      | ⟨2, _⟩ => by show 0 = 0 + 0; omega
      | ⟨3, _⟩ => by show k = k + 0; omega
      | ⟨4, _⟩ => by show h.val = 0 + h.val; omega
      | ⟨5, _⟩ => by show w.val = 0 + w.val; omega)

/-! ## The nine windows and the nine taps of the program -/

theorem val_main_v3_read (x0 : FVec Ideal S8x64x128x128 .f32) (b : Fin 8) (g : Fin 8) (cc : Fin 8) (h w : Fin 128) :
    val_main_v3 (F := Ideal) x0 (ix5 b g cc h w)
      = Cert.Agg.ringed x0 b ⟨8 * g.val + cc.val, by omega⟩ (h.val + 0) (w.val + 0) :=
  window_read x0 0 0 (by omega) (by omega) slices_S8x8x8x130x130_S8x8x8x128x128_0_0_0_0_0 b g cc h w

theorem val_main_v9_read (x0 : FVec Ideal S8x64x128x128 .f32) (b : Fin 8) (g : Fin 8) (cc : Fin 8) (h w : Fin 128) :
    val_main_v9 (F := Ideal) x0 (ix5 b g cc h w)
      = Cert.Agg.ringed x0 b ⟨8 * g.val + cc.val, by omega⟩ (h.val + 0) (w.val + 1) :=
  window_read x0 0 1 (by omega) (by omega) slices_S8x8x8x130x130_S8x8x8x128x128_0_0_0_0_1 b g cc h w

theorem val_main_v15_read (x0 : FVec Ideal S8x64x128x128 .f32) (b : Fin 8) (g : Fin 8) (cc : Fin 8) (h w : Fin 128) :
    val_main_v15 (F := Ideal) x0 (ix5 b g cc h w)
      = Cert.Agg.ringed x0 b ⟨8 * g.val + cc.val, by omega⟩ (h.val + 0) (w.val + 2) :=
  window_read x0 0 2 (by omega) (by omega) slices_S8x8x8x130x130_S8x8x8x128x128_0_0_0_0_2 b g cc h w

theorem val_main_v21_read (x0 : FVec Ideal S8x64x128x128 .f32) (b : Fin 8) (g : Fin 8) (cc : Fin 8) (h w : Fin 128) :
    val_main_v21 (F := Ideal) x0 (ix5 b g cc h w)
      = Cert.Agg.ringed x0 b ⟨8 * g.val + cc.val, by omega⟩ (h.val + 1) (w.val + 0) :=
  window_read x0 1 0 (by omega) (by omega) slices_S8x8x8x130x130_S8x8x8x128x128_0_0_0_1_0 b g cc h w

theorem val_main_v27_read (x0 : FVec Ideal S8x64x128x128 .f32) (b : Fin 8) (g : Fin 8) (cc : Fin 8) (h w : Fin 128) :
    val_main_v27 (F := Ideal) x0 (ix5 b g cc h w)
      = Cert.Agg.ringed x0 b ⟨8 * g.val + cc.val, by omega⟩ (h.val + 1) (w.val + 1) :=
  window_read x0 1 1 (by omega) (by omega) slices_S8x8x8x130x130_S8x8x8x128x128_0_0_0_1_1 b g cc h w

theorem val_main_v33_read (x0 : FVec Ideal S8x64x128x128 .f32) (b : Fin 8) (g : Fin 8) (cc : Fin 8) (h w : Fin 128) :
    val_main_v33 (F := Ideal) x0 (ix5 b g cc h w)
      = Cert.Agg.ringed x0 b ⟨8 * g.val + cc.val, by omega⟩ (h.val + 1) (w.val + 2) :=
  window_read x0 1 2 (by omega) (by omega) slices_S8x8x8x130x130_S8x8x8x128x128_0_0_0_1_2 b g cc h w

theorem val_main_v39_read (x0 : FVec Ideal S8x64x128x128 .f32) (b : Fin 8) (g : Fin 8) (cc : Fin 8) (h w : Fin 128) :
    val_main_v39 (F := Ideal) x0 (ix5 b g cc h w)
      = Cert.Agg.ringed x0 b ⟨8 * g.val + cc.val, by omega⟩ (h.val + 2) (w.val + 0) :=
  window_read x0 2 0 (by omega) (by omega) slices_S8x8x8x130x130_S8x8x8x128x128_0_0_0_2_0 b g cc h w

theorem val_main_v45_read (x0 : FVec Ideal S8x64x128x128 .f32) (b : Fin 8) (g : Fin 8) (cc : Fin 8) (h w : Fin 128) :
    val_main_v45 (F := Ideal) x0 (ix5 b g cc h w)
      = Cert.Agg.ringed x0 b ⟨8 * g.val + cc.val, by omega⟩ (h.val + 2) (w.val + 1) :=
  window_read x0 2 1 (by omega) (by omega) slices_S8x8x8x130x130_S8x8x8x128x128_0_0_0_2_1 b g cc h w

theorem val_main_v51_read (x0 : FVec Ideal S8x64x128x128 .f32) (b : Fin 8) (g : Fin 8) (cc : Fin 8) (h w : Fin 128) :
    val_main_v51 (F := Ideal) x0 (ix5 b g cc h w)
      = Cert.Agg.ringed x0 b ⟨8 * g.val + cc.val, by omega⟩ (h.val + 2) (w.val + 2) :=
  window_read x0 2 2 (by omega) (by omega) slices_S8x8x8x130x130_S8x8x8x128x128_0_0_0_2_2 b g cc h w

theorem val_main_v6_read (x1 : FVec Ideal S8x8x1x9x128x128 .f32) (b : Fin 8) (g : Fin 8) (cc : Fin 8) (h w : Fin 128) :
    val_main_v6 (F := Ideal) x1 (ix5 b g cc h w) = Cert.Agg.tapWeight x1 b g 0 h w :=
  tap_read x1 0 (by omega) slices_S8x8x1x9x128x128_S8x8x1x1x128x128_0_0_0_0_0_0 b g cc h w

theorem val_main_v12_read (x1 : FVec Ideal S8x8x1x9x128x128 .f32) (b : Fin 8) (g : Fin 8) (cc : Fin 8) (h w : Fin 128) :
    val_main_v12 (F := Ideal) x1 (ix5 b g cc h w) = Cert.Agg.tapWeight x1 b g 1 h w :=
  tap_read x1 1 (by omega) slices_S8x8x1x9x128x128_S8x8x1x1x128x128_0_0_0_1_0_0 b g cc h w

theorem val_main_v18_read (x1 : FVec Ideal S8x8x1x9x128x128 .f32) (b : Fin 8) (g : Fin 8) (cc : Fin 8) (h w : Fin 128) :
    val_main_v18 (F := Ideal) x1 (ix5 b g cc h w) = Cert.Agg.tapWeight x1 b g 2 h w :=
  tap_read x1 2 (by omega) slices_S8x8x1x9x128x128_S8x8x1x1x128x128_0_0_0_2_0_0 b g cc h w

theorem val_main_v24_read (x1 : FVec Ideal S8x8x1x9x128x128 .f32) (b : Fin 8) (g : Fin 8) (cc : Fin 8) (h w : Fin 128) :
    val_main_v24 (F := Ideal) x1 (ix5 b g cc h w) = Cert.Agg.tapWeight x1 b g 3 h w :=
  tap_read x1 3 (by omega) slices_S8x8x1x9x128x128_S8x8x1x1x128x128_0_0_0_3_0_0 b g cc h w

theorem val_main_v30_read (x1 : FVec Ideal S8x8x1x9x128x128 .f32) (b : Fin 8) (g : Fin 8) (cc : Fin 8) (h w : Fin 128) :
    val_main_v30 (F := Ideal) x1 (ix5 b g cc h w) = Cert.Agg.tapWeight x1 b g 4 h w :=
  tap_read x1 4 (by omega) slices_S8x8x1x9x128x128_S8x8x1x1x128x128_0_0_0_4_0_0 b g cc h w

theorem val_main_v36_read (x1 : FVec Ideal S8x8x1x9x128x128 .f32) (b : Fin 8) (g : Fin 8) (cc : Fin 8) (h w : Fin 128) :
    val_main_v36 (F := Ideal) x1 (ix5 b g cc h w) = Cert.Agg.tapWeight x1 b g 5 h w :=
  tap_read x1 5 (by omega) slices_S8x8x1x9x128x128_S8x8x1x1x128x128_0_0_0_5_0_0 b g cc h w

theorem val_main_v42_read (x1 : FVec Ideal S8x8x1x9x128x128 .f32) (b : Fin 8) (g : Fin 8) (cc : Fin 8) (h w : Fin 128) :
    val_main_v42 (F := Ideal) x1 (ix5 b g cc h w) = Cert.Agg.tapWeight x1 b g 6 h w :=
  tap_read x1 6 (by omega) slices_S8x8x1x9x128x128_S8x8x1x1x128x128_0_0_0_6_0_0 b g cc h w

theorem val_main_v48_read (x1 : FVec Ideal S8x8x1x9x128x128 .f32) (b : Fin 8) (g : Fin 8) (cc : Fin 8) (h w : Fin 128) :
    val_main_v48 (F := Ideal) x1 (ix5 b g cc h w) = Cert.Agg.tapWeight x1 b g 7 h w :=
  tap_read x1 7 (by omega) slices_S8x8x1x9x128x128_S8x8x1x1x128x128_0_0_0_7_0_0 b g cc h w

theorem val_main_v54_read (x1 : FVec Ideal S8x8x1x9x128x128 .f32) (b : Fin 8) (g : Fin 8) (cc : Fin 8) (h w : Fin 128) :
    val_main_v54 (F := Ideal) x1 (ix5 b g cc h w) = Cert.Agg.tapWeight x1 b g 8 h w :=
  tap_read x1 8 (by omega) slices_S8x8x1x9x128x128_S8x8x1x1x128x128_0_0_0_8_0_0 b g cc h w

/-! ## The sum of the nine products, and the result -/

/-- The running sum after the ninth tap, at channel cc of group g, is the aggregate. -/
theorem sum_read (x0 : FVec Ideal S8x64x128x128 .f32) (x1 : FVec Ideal S8x8x1x9x128x128 .f32)
    (b : Fin 8) (g : Fin 8) (cc : Fin 8) (h w : Fin 128) :
    val_main_v56 (F := Ideal) x0 x1 (ix5 b g cc h w) = Cert.Agg.agg x0 x1 b g cc h w := by
  unfold Cert.Agg.agg
  rw [val_main_v56_apply, val_main_v50_apply, val_main_v44_apply, val_main_v38_apply, val_main_v32_apply, val_main_v26_apply, val_main_v20_apply, val_main_v14_apply, val_main_v8_apply]
  rw [val_main_v55_apply, val_main_v49_apply, val_main_v43_apply, val_main_v37_apply, val_main_v31_apply, val_main_v25_apply, val_main_v19_apply, val_main_v13_apply, val_main_v7_apply]
  rw [val_main_v3_read, val_main_v9_read, val_main_v15_read, val_main_v21_read, val_main_v27_read, val_main_v33_read, val_main_v39_read, val_main_v45_read, val_main_v51_read]
  rw [val_main_v6_read, val_main_v12_read, val_main_v18_read, val_main_v24_read, val_main_v30_read, val_main_v36_read, val_main_v42_read, val_main_v48_read, val_main_v54_read]
  rw [val_main_v2_apply, val_main_cst_apply]
  rfl

/-- The reference's result is the aggregation: its last reshape puts channel cc of group g at channel 8·g + cc. -/
theorem reference_eq (x0 : FVec Ideal S8x64x128x128 .f32) (x1 : FVec Ideal S8x8x1x9x128x128 .f32) :
    val_main_v57 (F := Ideal) x0 x1 = Cert.Agg.result x0 x1 := by
  funext i
  obtain ⟨b, c, h, w, rfl⟩ : ∃ b c h w, i = ix4 b c h w := ⟨i 0, i 1, i 2, i 3, eq_ix4 i⟩
  have hb := b.isLt
  have hc := c.isLt
  have hh := h.isLt
  have hw := w.isLt
  rw [Cert.Agg.result_apply x0 x1 b ⟨c.val / 8, by omega⟩ ⟨c.val % 8, by omega⟩ h w c
    (by show c.val = 8 * (c.val / 8) + c.val % 8; omega)]
  rw [← sum_read x0 x1 b ⟨c.val / 8, by omega⟩ ⟨c.val % 8, by omega⟩ h w]
  unfold val_main_v57
  generalize val_main_v56 (F := Ideal) x0 x1 = y
  exact shapeCast_apply y shapeCasts_S8x8x8x128x128_S8x64x128x128 (ix4 b c h w)
    (ix5 b (⟨c.val / 8, by omega⟩ : Fin 8) (⟨c.val % 8, by omega⟩ : Fin 8) h w)
    (by rewrite [Shape.rowMajor_val_five, Shape.rowMajor_val_four]
        show (((b.val * 8 + c.val / 8) * 8 + c.val % 8) * 128 + h.val) * 128 + w.val
          = ((b.val * 64 + c.val) * 128 + h.val) * 128 + w.val
        omega)

end Cert.ReferenceIdeal.RefValue

end
-- ==== Proof.Taps.lean ====
/-
  The vector operations of one tap of the stencil, read at an index (c, h, w) of an [8, 128, 128] block.
  A window of the row-padded plane is shifted one column to the right by rotating the lanes by 1 and zeroing
  column 0 (what came around the end), or one column to the left by rotating by 127 and zeroing column 127; a
  tap's weight plane [128, 128] is laid under every one of the eight channels.
-/
import Idealize.ShloMosaic.PureOps.Ideal.Laws
import Idealize.ShloMosaic.Lib.ValueIdx
import Idealize.ShloMosaic.Lib.ValueLayout
import Idealize.ShloMosaic.Lib.KernelVsHost

noncomputable section

namespace Cert.Agg

open Idealize.ShloMosaic Idealize.ShloMosaic.ValueIdx

variable {α : Type}

/-- A lane number below 128 is positive as a signed 32-bit word exactly when it is positive. -/
theorem zero_slt_lane (w : Fin 128) : IntOp.cmpi .sgt (BitVec.ofNat 32 w.val) 0#32 = if 0 < w.val then 1#1 else 0#1 := by
  revert w; decide

/-- A lane number below 128 is below 127 as a signed 32-bit word exactly when it is below 127. -/
theorem lane_slt_last (w : Fin 128) : IntOp.cmpi .slt (BitVec.ofNat 32 w.val) 127#32 = if w.val < 127 then 1#1 else 0#1 := by
  revert w; decide

/-- The lanes rotated by one: lane `w` holds what lane `w − 1` held, lane 0 what lane 127 held. -/
theorem rotate_one_apply (v : (⟨3, ![8, 128, 128]⟩ : Shape).Idx → α) (hr : (⟨3, ![8, 128, 128]⟩ : Shape).Rotates 2 none)
    (c : Fin 8) (h w : Fin 128) :
    dynamicRotate 2 1#32 none v hr (ix3 c h w) = v (ix3 c h ⟨(w.val + 127) % 128, Nat.mod_lt _ (by decide)⟩) := by
  refine dynamicRotate_apply 2 1#32 v hr _ _ ?_
  intro b
  match b with
  | ⟨0, _⟩ => rfl
  | ⟨1, _⟩ => rfl
  | ⟨2, _⟩ => rfl

/-- The lanes rotated by 127: lane `w` holds what lane `w + 1` held, lane 127 what lane 0 held. -/
theorem rotate_last_apply (v : (⟨3, ![8, 128, 128]⟩ : Shape).Idx → α) (hr : (⟨3, ![8, 128, 128]⟩ : Shape).Rotates 2 none)
    (c : Fin 8) (h w : Fin 128) :
    dynamicRotate 2 127#32 none v hr (ix3 c h w) = v (ix3 c h ⟨(w.val + 1) % 128, Nat.mod_lt _ (by decide)⟩) := by
  refine dynamicRotate_apply 2 127#32 v hr _ _ ?_
  intro b
  match b with
  | ⟨0, _⟩ => rfl
  | ⟨1, _⟩ => rfl
  | ⟨2, _⟩ => rfl

/-- A window shifted one column to the RIGHT, a `z` brought in at column 0: the lanes rotated by one under the mask
    "lane > 0". -/
theorem shift_right_apply (v : (⟨3, ![8, 128, 128]⟩ : Shape).Idx → α) (hr : (⟨3, ![8, 128, 128]⟩ : Shape).Rotates 2 none)
    (hi : (⟨3, ![8, 128, 128]⟩ : Shape).Iotas .tc 32 [2]) (z : α) (c : Fin 8) (h w : Fin 128) :
    select (cmpi .sgt (iota .tc ⟨3, ![8, 128, 128]⟩ 32 [2] hi) (broadcast ⟨3, ![8, 128, 128]⟩ 0#32))
        (dynamicRotate 2 1#32 none v hr) (broadcast ⟨3, ![8, 128, 128]⟩ z) (ix3 c h w)
      = if hw : 0 < w.val then v (ix3 c h ⟨w.val - 1, by omega⟩) else z := by
  rw [select_apply]
  show Scalar.select (IntOp.cmpi .sgt (iota .tc ⟨3, ![8, 128, 128]⟩ 32 [2] hi (ix3 c h w)) 0#32) _ _ = _
  rw [iota_single_apply]
  show Scalar.select (IntOp.cmpi .sgt (BitVec.ofNat 32 w.val) 0#32) _ _ = _
  rw [zero_slt_lane]
  by_cases hw : 0 < w.val
  · rw [if_pos hw, select_one, dif_pos hw, rotate_one_apply]
    exact congrArg v (congrArg (ix3 c h) (Fin.ext (by show (w.val + 127) % 128 = w.val - 1; have := w.isLt; omega)))
  · rw [if_neg hw, select_zero, dif_neg hw]
    rfl

/-- A window shifted one column to the LEFT, a `z` brought in at column 127: the lanes rotated by 127 under the mask
    "lane < 127". -/
theorem shift_left_apply (v : (⟨3, ![8, 128, 128]⟩ : Shape).Idx → α) (hr : (⟨3, ![8, 128, 128]⟩ : Shape).Rotates 2 none)
    (hi : (⟨3, ![8, 128, 128]⟩ : Shape).Iotas .tc 32 [2]) (z : α) (c : Fin 8) (h w : Fin 128) :
    select (cmpi .slt (iota .tc ⟨3, ![8, 128, 128]⟩ 32 [2] hi) (broadcast ⟨3, ![8, 128, 128]⟩ 127#32))
        (dynamicRotate 2 127#32 none v hr) (broadcast ⟨3, ![8, 128, 128]⟩ z) (ix3 c h w)
      = if hw : w.val < 127 then v (ix3 c h ⟨w.val + 1, by omega⟩) else z := by
  rw [select_apply]
  show Scalar.select (IntOp.cmpi .slt (iota .tc ⟨3, ![8, 128, 128]⟩ 32 [2] hi (ix3 c h w)) 127#32) _ _ = _
  rw [iota_single_apply]
  show Scalar.select (IntOp.cmpi .slt (BitVec.ofNat 32 w.val) 127#32) _ _ = _
  rw [lane_slt_last]
  by_cases hw : w.val < 127
  · rw [if_pos hw, select_one, dif_pos hw, rotate_last_apply]
    exact congrArg v (congrArg (ix3 c h) (Fin.ext (by show (w.val + 1) % 128 = w.val + 1; omega)))
  · rw [if_neg hw, select_zero, dif_neg hw]
    rfl

/-- A tap's weight plane, loaded as [1, 1, 1, 128, 128], viewed [128, 128] then [1, 128, 128] and laid under each of
    the eight channels: at (c, h, w) it is the plane at (h, w). -/
theorem weight_plane_apply (wv : (⟨5, ![1, 1, 1, 128, 128]⟩ : Shape).Idx → α)
    (h1 : (⟨5, ![1, 1, 1, 128, 128]⟩ : Shape).ShapeCasts ⟨2, ![128, 128]⟩)
    (h2 : (⟨2, ![128, 128]⟩ : Shape).ShapeCasts ⟨3, ![1, 128, 128]⟩)
    (h3 : (⟨3, ![1, 128, 128]⟩ : Shape).Broadcasts ⟨3, ![8, 128, 128]⟩) (c : Fin 8) (h w : Fin 128) :
    broadcastTo ⟨3, ![8, 128, 128]⟩ (shapeCast ⟨3, ![1, 128, 128]⟩ (shapeCast ⟨2, ![128, 128]⟩ wv h1) h2) h3 (ix3 c h w)
      = wv (ix5 (0 : Fin 1) (0 : Fin 1) (0 : Fin 1) h w) := by
  rw [broadcastTo_apply _ h3 (ix3 c h w) (ix3 (0 : Fin 1) h w) (fun a => by
    match a with
    | ⟨0, _⟩ => rfl
    | ⟨1, _⟩ => rfl
    | ⟨2, _⟩ => rfl)]
  rw [shapeCast_ab_1ab_apply]
  exact shapeCast_apply wv h1 (ix2 h w) (ix5 (0 : Fin 1) (0 : Fin 1) (0 : Fin 1) h w) (by
    rw [Shape.rowMajor_val_five, Shape.rowMajor_val_two]
    show ((((0 * 1 + 0) * 1 + 0) * 128 + h.val) * 128 + w.val) = h.val * 128 + w.val
    omega)

end Cert.Agg

end
-- ==== Proof.GroupBlock.lean ====
/-
  One group's block of the stencil as the vector operations compute it. The eight channels of a group share three
  windows of the row-padded planes — rows h, h + 1, h + 2 of the padded block, each [1, 8, 128, 128] — and nine weight
  planes [1, 1, 1, 128, 128]. Each window is taken as it is (the middle column of taps), shifted one column to the
  right with a zero brought in (the left column of taps), or shifted one column to the left with a zero brought in (the
  right column of taps); each is multiplied by its tap's weight plane laid under all eight channels, and the nine
  products are added in the order of the taps onto a zero block.
-/
import proofs.«100947_j30545807409744_1_alg».proof.Proof.Taps

noncomputable section

namespace Cert.Agg

open Idealize.ShloMosaic Idealize.ShloMosaic.ValueIdx

/-- The side conditions of the shape operations of one group's block, gathered. -/
structure BlockOps : Prop where
  drop : (⟨4, ![1, 8, 128, 128]⟩ : Shape).ShapeCasts ⟨3, ![8, 128, 128]⟩
  add : (⟨3, ![8, 128, 128]⟩ : Shape).ShapeCasts ⟨4, ![1, 8, 128, 128]⟩
  rot : (⟨3, ![8, 128, 128]⟩ : Shape).Rotates 2 none
  lanes : (⟨3, ![8, 128, 128]⟩ : Shape).Iotas .tc 32 [2]
  plane : (⟨5, ![1, 1, 1, 128, 128]⟩ : Shape).ShapeCasts ⟨2, ![128, 128]⟩
  one : (⟨2, ![128, 128]⟩ : Shape).ShapeCasts ⟨3, ![1, 128, 128]⟩
  under : (⟨3, ![1, 128, 128]⟩ : Shape).Broadcasts ⟨3, ![8, 128, 128]⟩

section
variable {F : FTy → Type} [FloatOps F] (o : BlockOps)

/-- A window's eight channels as they are. -/
abbrev asIs (a : Vec F ⟨4, ![1, 8, 128, 128]⟩ .f32) : FVec F ⟨3, ![8, 128, 128]⟩ .f32 :=
  shapeCast ⟨3, ![8, 128, 128]⟩ a o.drop

/-- A window shifted one column to the right, a zero brought in at column 0. -/
abbrev toRight (a : Vec F ⟨4, ![1, 8, 128, 128]⟩ .f32) : FVec F ⟨3, ![8, 128, 128]⟩ .f32 :=
  select (cmpi .sgt (iota .tc ⟨3, ![8, 128, 128]⟩ 32 [2] o.lanes) (broadcast ⟨3, ![8, 128, 128]⟩ 0#32))
    (dynamicRotate 2 1#32 none (shapeCast ⟨3, ![8, 128, 128]⟩ a o.drop) o.rot)
    (broadcast ⟨3, ![8, 128, 128]⟩ (Scalar.ofBits .f32 0x00000000#32 : F .f32))

/-- A window shifted one column to the left, a zero brought in at column 127. -/
abbrev toLeft (a : Vec F ⟨4, ![1, 8, 128, 128]⟩ .f32) : FVec F ⟨3, ![8, 128, 128]⟩ .f32 :=
  select (cmpi .slt (iota .tc ⟨3, ![8, 128, 128]⟩ 32 [2] o.lanes) (broadcast ⟨3, ![8, 128, 128]⟩ 127#32))
    (dynamicRotate 2 127#32 none (shapeCast ⟨3, ![8, 128, 128]⟩ a o.drop) o.rot)
    (broadcast ⟨3, ![8, 128, 128]⟩ (Scalar.ofBits .f32 0x00000000#32 : F .f32))

/-- A tap's weight plane laid under the eight channels. -/
abbrev underAll (wv : Vec F ⟨5, ![1, 1, 1, 128, 128]⟩ .f32) : FVec F ⟨3, ![8, 128, 128]⟩ .f32 :=
  broadcastTo ⟨3, ![8, 128, 128]⟩ (shapeCast ⟨3, ![1, 128, 128]⟩ (shapeCast ⟨2, ![128, 128]⟩ wv o.plane) o.one) o.under

/-- One group's block: the nine weighted windows added in the order of the taps onto a zero block. -/
def groupBlock (a0 a1 a2 : Vec F ⟨4, ![1, 8, 128, 128]⟩ .f32)
    (w0 w1 w2 w3 w4 w5 w6 w7 w8 : Vec F ⟨5, ![1, 1, 1, 128, 128]⟩ .f32) : FVec F ⟨4, ![1, 8, 128, 128]⟩ .f32 :=
  shapeCast ⟨4, ![1, 8, 128, 128]⟩
    (addf (addf (addf (addf (addf (addf (addf (addf (addf
      (broadcast ⟨3, ![8, 128, 128]⟩ (Scalar.ofBits .f32 0x00000000#32 : F .f32))
      (mulf (toRight o a0) (underAll o w0)))
      (mulf (asIs o a0) (underAll o w1)))
      (mulf (toLeft o a0) (underAll o w2)))
      (mulf (toRight o a1) (underAll o w3)))
      (mulf (asIs o a1) (underAll o w4)))
      (mulf (toLeft o a1) (underAll o w5)))
      (mulf (toRight o a2) (underAll o w6)))
      (mulf (asIs o a2) (underAll o w7)))
      (mulf (toLeft o a2) (underAll o w8))) o.add

end

/-- A window shifted right, at the extended reals, entry by entry. -/
def rightAt (a : (⟨4, ![1, 8, 128, 128]⟩ : Shape).Idx → EReal) (c : Fin 8) (h w : Fin 128) : EReal :=
  if hw : 0 < w.val then a (ix4 (0 : Fin 1) c h ⟨w.val - 1, by omega⟩) else Ideal.ofBits .f32 0x00000000#32

/-- A window shifted left, at the extended reals, entry by entry. -/
def leftAt (a : (⟨4, ![1, 8, 128, 128]⟩ : Shape).Idx → EReal) (c : Fin 8) (h w : Fin 128) : EReal :=
  if hw : w.val < 127 then a (ix4 (0 : Fin 1) c h ⟨w.val + 1, by omega⟩) else Ideal.ofBits .f32 0x00000000#32

theorem toRight_apply (o : BlockOps) (a : Vec Ideal ⟨4, ![1, 8, 128, 128]⟩ .f32) (c : Fin 8) (h w : Fin 128) :
    toRight o a (ix3 c h w) = rightAt a c h w := by
  unfold rightAt
  refine (shift_right_apply (shapeCast ⟨3, ![8, 128, 128]⟩ a o.drop) o.rot o.lanes (Ideal.ofBits .f32 0x00000000#32) c h w).trans ?_
  by_cases hw : 0 < w.val
  · rw [dif_pos hw, dif_pos hw, shapeCast_1abc_abc_apply]
  · rw [dif_neg hw, dif_neg hw]

theorem toLeft_apply (o : BlockOps) (a : Vec Ideal ⟨4, ![1, 8, 128, 128]⟩ .f32) (c : Fin 8) (h w : Fin 128) :
    toLeft o a (ix3 c h w) = leftAt a c h w := by
  unfold leftAt
  refine (shift_left_apply (shapeCast ⟨3, ![8, 128, 128]⟩ a o.drop) o.rot o.lanes (Ideal.ofBits .f32 0x00000000#32) c h w).trans ?_
  by_cases hw : w.val < 127
  · rw [dif_pos hw, dif_pos hw, shapeCast_1abc_abc_apply]
  · rw [dif_neg hw, dif_neg hw]

theorem asIs_apply (o : BlockOps) (a : Vec Ideal ⟨4, ![1, 8, 128, 128]⟩ .f32) (c : Fin 8) (h w : Fin 128) :
    asIs o a (ix3 c h w) = a (ix4 (0 : Fin 1) c h w) :=
  shapeCast_1abc_abc_apply a o.drop c h w

theorem underAll_apply (o : BlockOps) (wv : Vec Ideal ⟨5, ![1, 1, 1, 128, 128]⟩ .f32) (c : Fin 8) (h w : Fin 128) :
    underAll o wv (ix3 c h w) = wv (ix5 (0 : Fin 1) (0 : Fin 1) (0 : Fin 1) h w) :=
  weight_plane_apply wv o.plane o.one o.under c h w

/-- One group's block at the extended reals, entry by entry. -/
theorem groupBlock_apply (o : BlockOps) (a0 a1 a2 : Vec Ideal ⟨4, ![1, 8, 128, 128]⟩ .f32)
    (w0 w1 w2 w3 w4 w5 w6 w7 w8 : Vec Ideal ⟨5, ![1, 1, 1, 128, 128]⟩ .f32) (u : Fin 1) (c : Fin 8) (h w : Fin 128) :
    groupBlock o a0 a1 a2 w0 w1 w2 w3 w4 w5 w6 w7 w8 (ix4 u c h w)
      = Ideal.ofBits .f32 0x00000000#32
        + rightAt a0 c h w * w0 (ix5 (0 : Fin 1) (0 : Fin 1) (0 : Fin 1) h w)
        + a0 (ix4 (0 : Fin 1) c h w) * w1 (ix5 (0 : Fin 1) (0 : Fin 1) (0 : Fin 1) h w)
        + leftAt a0 c h w * w2 (ix5 (0 : Fin 1) (0 : Fin 1) (0 : Fin 1) h w)
        + rightAt a1 c h w * w3 (ix5 (0 : Fin 1) (0 : Fin 1) (0 : Fin 1) h w)
        + a1 (ix4 (0 : Fin 1) c h w) * w4 (ix5 (0 : Fin 1) (0 : Fin 1) (0 : Fin 1) h w)
        + leftAt a1 c h w * w5 (ix5 (0 : Fin 1) (0 : Fin 1) (0 : Fin 1) h w)
        + rightAt a2 c h w * w6 (ix5 (0 : Fin 1) (0 : Fin 1) (0 : Fin 1) h w)
        + a2 (ix4 (0 : Fin 1) c h w) * w7 (ix5 (0 : Fin 1) (0 : Fin 1) (0 : Fin 1) h w)
        + leftAt a2 c h w * w8 (ix5 (0 : Fin 1) (0 : Fin 1) (0 : Fin 1) h w) := by
  unfold groupBlock
  rw [shapeCast_abc_1abc_apply]
  simp only [addf_apply, mulf_apply, toRight_apply, toLeft_apply, asIs_apply, underAll_apply]
  rfl

end Cert.Agg

end
-- ==== Proof.BlockOut.lean ====
/-
  What one grid point's body leaves in its output block, as a function of the two input blocks it sees: the block
  P [1, 64, 130, 128] of the row-padded array (a batch entry's 64 planes, each with one zero row above and below) and
  the block Wt [1, 8, 9, 128, 128] of the weights (8 groups, 9 taps). At channel c = 8·g + cc, row h, column w the
  body's nine taps read rows h, h + 1, h + 2 of the padded plane c at columns w − 1, w, w + 1, a zero standing in for
  column −1 and for column 128, each times the weight of its tap for group g at (h, w). The body stores the eight
  groups as eight pieces that tile the block; every piece is this one function on its own channels.
-/
import proofs.«100947_j30545807409744_1_alg».proof.Proof.GroupBlock

noncomputable section

namespace Cert.Agg

open Idealize.ShloMosaic Idealize.ShloMosaic.ValueIdx

/-- The entry to the left of column `w` in row `i` of padded plane `c`; a zero at column 0. -/
def fromLeft (P : (⟨4, ![1, 64, 130, 128]⟩ : Shape).Idx → EReal) (c : Fin 64) (i : Fin 130) (w : Fin 128) : EReal :=
  if hw : 0 < w.val then P (ix4 (0 : Fin 1) c i ⟨w.val - 1, by omega⟩) else Ideal.ofBits .f32 0x00000000#32

/-- The entry to the right of column `w` in row `i` of padded plane `c`; a zero at column 127. -/
def fromRight (P : (⟨4, ![1, 64, 130, 128]⟩ : Shape).Idx → EReal) (c : Fin 64) (i : Fin 130) (w : Fin 128) : EReal :=
  if hw : w.val < 127 then P (ix4 (0 : Fin 1) c i ⟨w.val + 1, by omega⟩) else Ideal.ofBits .f32 0x00000000#32

/-- The output block at channel `cc` of group `g`. -/
def blockAt (P : (⟨4, ![1, 64, 130, 128]⟩ : Shape).Idx → EReal) (Wt : (⟨5, ![1, 8, 9, 128, 128]⟩ : Shape).Idx → EReal)
    (g : Fin 8) (cc : Fin 8) (h w : Fin 128) : EReal :=
  Ideal.ofBits .f32 0x00000000#32
    + fromLeft P ⟨8 * g.val + cc.val, by omega⟩ ⟨h.val + 0, by omega⟩ w * Wt (ix5 (0 : Fin 1) g (0 : Fin 9) h w)
    + P (ix4 (0 : Fin 1) ⟨8 * g.val + cc.val, by omega⟩ ⟨h.val + 0, by omega⟩ w) * Wt (ix5 (0 : Fin 1) g (1 : Fin 9) h w)
    + fromRight P ⟨8 * g.val + cc.val, by omega⟩ ⟨h.val + 0, by omega⟩ w * Wt (ix5 (0 : Fin 1) g (2 : Fin 9) h w)
    + fromLeft P ⟨8 * g.val + cc.val, by omega⟩ ⟨h.val + 1, by omega⟩ w * Wt (ix5 (0 : Fin 1) g (3 : Fin 9) h w)
    + P (ix4 (0 : Fin 1) ⟨8 * g.val + cc.val, by omega⟩ ⟨h.val + 1, by omega⟩ w) * Wt (ix5 (0 : Fin 1) g (4 : Fin 9) h w)
    + fromRight P ⟨8 * g.val + cc.val, by omega⟩ ⟨h.val + 1, by omega⟩ w * Wt (ix5 (0 : Fin 1) g (5 : Fin 9) h w)
    + fromLeft P ⟨8 * g.val + cc.val, by omega⟩ ⟨h.val + 2, by omega⟩ w * Wt (ix5 (0 : Fin 1) g (6 : Fin 9) h w)
    + P (ix4 (0 : Fin 1) ⟨8 * g.val + cc.val, by omega⟩ ⟨h.val + 2, by omega⟩ w) * Wt (ix5 (0 : Fin 1) g (7 : Fin 9) h w)
    + fromRight P ⟨8 * g.val + cc.val, by omega⟩ ⟨h.val + 2, by omega⟩ w * Wt (ix5 (0 : Fin 1) g (8 : Fin 9) h w)

/-- The output block as one function of its index. -/
def blockOut (P : (⟨4, ![1, 64, 130, 128]⟩ : Shape).Idx → EReal) (Wt : (⟨5, ![1, 8, 9, 128, 128]⟩ : Shape).Idx → EReal) :
    (⟨4, ![1, 64, 128, 128]⟩ : Shape).Idx → EReal := fun y =>
  blockAt P Wt ⟨(y 1).val / 8, by have h1 : (y 1).val < 64 := (y 1).isLt; omega⟩ ⟨(y 1).val % 8, by omega⟩ (y 2) (y 3)

theorem blockOut_apply (P : (⟨4, ![1, 64, 130, 128]⟩ : Shape).Idx → EReal) (Wt : (⟨5, ![1, 8, 9, 128, 128]⟩ : Shape).Idx → EReal)
    (u : Fin 1) (c : Fin 64) (h w : Fin 128) (g cc : Fin 8) (hc : c.val = 8 * g.val + cc.val) :
    blockOut P Wt (ix4 u c h w) = blockAt P Wt g cc h w := by
  have hg : (⟨c.val / 8, by have := c.isLt; omega⟩ : Fin 8) = g := Fin.ext (by show c.val / 8 = g.val; have := cc.isLt; omega)
  have hcc : (⟨c.val % 8, by omega⟩ : Fin 8) = cc := Fin.ext (by show c.val % 8 = cc.val; have := cc.isLt; omega)
  show blockAt P Wt ⟨c.val / 8, _⟩ ⟨c.val % 8, _⟩ h w = _
  rw [hg, hcc]

/-- A window of eight channels and 128 rows of the padded block, loaded from channel `oc` and row `r`, read at an index. -/
theorem ld_window (P : (⟨4, ![1, 64, 130, 128]⟩ : Shape).Idx → EReal) (oc r : ℕ)
    (inb : ∀ a, (![0, oc, r, 0] : Fin 4 → ℕ) a + (![1, 8, 128, 128] : Fin 4 → ℕ) a ≤ (⟨4, ![1, 64, 130, 128]⟩ : Shape).size a)
    (u : Fin 1) (cc : Fin 8) (h w : Fin 128) (c : Fin 64) (i : Fin 130) (hc : c.val = oc + cc.val) (hi : i.val = r + h.val) :
    View.ld (Val := Elt Ideal) (e' := .f32) P (Rect.unit (s := ⟨4, ![1, 64, 130, 128]⟩) ![0, oc, r, 0] ![1, 8, 128, 128] inb) (ix4 u cc h w) = P (ix4 (0 : Fin 1) c i w) := by
  show P ((Rect.unit (s := ⟨4, ![1, 64, 130, 128]⟩) ![0, oc, r, 0] ![1, 8, 128, 128] inb).idx (ix4 u cc h w)) = _
  refine congrArg P (funext fun a => Fin.ext ?_)
  match a with
  | ⟨0, _⟩ => show 0 + 1 * u.val = 0; omega
  | ⟨1, _⟩ => show oc + 1 * cc.val = c.val; omega
  | ⟨2, _⟩ => show r + 1 * h.val = i.val; omega
  | ⟨3, _⟩ => show 0 + 1 * w.val = w.val; omega

/-- A tap's weight plane, loaded from group `gi` and tap `k` of the weights' block, read at an index. -/
theorem ld_weight (Wt : (⟨5, ![1, 8, 9, 128, 128]⟩ : Shape).Idx → EReal) (gi k : ℕ)
    (inb : ∀ a, (![0, gi, k, 0, 0] : Fin 5 → ℕ) a + (![1, 1, 1, 128, 128] : Fin 5 → ℕ) a ≤ (⟨5, ![1, 8, 9, 128, 128]⟩ : Shape).size a)
    (h w : Fin 128) (g : Fin 8) (kk : Fin 9) (hg : g.val = gi) (hk : kk.val = k) :
    View.ld (Val := Elt Ideal) (e' := .f32) Wt (Rect.unit (s := ⟨5, ![1, 8, 9, 128, 128]⟩) ![0, gi, k, 0, 0] ![1, 1, 1, 128, 128] inb)
        (ix5 (0 : Fin 1) (0 : Fin 1) (0 : Fin 1) h w) = Wt (ix5 (0 : Fin 1) g kk h w) := by
  show Wt ((Rect.unit (s := ⟨5, ![1, 8, 9, 128, 128]⟩) ![0, gi, k, 0, 0] ![1, 1, 1, 128, 128] inb).idx
    (ix5 (0 : Fin 1) (0 : Fin 1) (0 : Fin 1) h w)) = _
  refine congrArg Wt (funext fun a => Fin.ext ?_)
  match a with
  | ⟨0, _⟩ => show 0 + 1 * 0 = 0; omega
  | ⟨1, _⟩ => show gi + 1 * 0 = g.val; omega
  | ⟨2, _⟩ => show k + 1 * 0 = kk.val; omega
  | ⟨3, _⟩ => show 0 + 1 * h.val = h.val; omega
  | ⟨4, _⟩ => show 0 + 1 * w.val = w.val; omega

/-- A loaded window shifted right is the padded block read from the left. -/
theorem rightAt_ld (P : (⟨4, ![1, 64, 130, 128]⟩ : Shape).Idx → EReal) (oc r : ℕ)
    (inb : ∀ a, (![0, oc, r, 0] : Fin 4 → ℕ) a + (![1, 8, 128, 128] : Fin 4 → ℕ) a ≤ (⟨4, ![1, 64, 130, 128]⟩ : Shape).size a)
    (cc : Fin 8) (h w : Fin 128) (c : Fin 64) (i : Fin 130) (hc : c.val = oc + cc.val) (hi : i.val = r + h.val) :
    rightAt (View.ld (Val := Elt Ideal) (e' := .f32) P (Rect.unit (s := ⟨4, ![1, 64, 130, 128]⟩) ![0, oc, r, 0] ![1, 8, 128, 128] inb)) cc h w = fromLeft P c i w := by
  unfold rightAt fromLeft
  by_cases hw : 0 < w.val
  · rw [dif_pos hw, dif_pos hw]; exact ld_window P oc r inb 0 cc h _ c i hc hi
  · rw [dif_neg hw, dif_neg hw]

/-- A loaded window shifted left is the padded block read from the right. -/
theorem leftAt_ld (P : (⟨4, ![1, 64, 130, 128]⟩ : Shape).Idx → EReal) (oc r : ℕ)
    (inb : ∀ a, (![0, oc, r, 0] : Fin 4 → ℕ) a + (![1, 8, 128, 128] : Fin 4 → ℕ) a ≤ (⟨4, ![1, 64, 130, 128]⟩ : Shape).size a)
    (cc : Fin 8) (h w : Fin 128) (c : Fin 64) (i : Fin 130) (hc : c.val = oc + cc.val) (hi : i.val = r + h.val) :
    leftAt (View.ld (Val := Elt Ideal) (e' := .f32) P (Rect.unit (s := ⟨4, ![1, 64, 130, 128]⟩) ![0, oc, r, 0] ![1, 8, 128, 128] inb)) cc h w = fromRight P c i w := by
  unfold leftAt fromRight
  by_cases hw : w.val < 127
  · rw [dif_pos hw, dif_pos hw]; exact ld_window P oc r inb 0 cc h _ c i hc hi
  · rw [dif_neg hw, dif_neg hw]

/-- ONE GROUP'S STORE IS THE BLOCK FUNCTION ON ITS CHANNELS: the group's block, computed from the three windows loaded
    at channel `oc = 8·g` and rows 0, 1, 2 and the nine weight planes loaded at group `g`, is `blockOut` at the place in
    the output block where the store's rectangle (channels `oc … oc + 7`) puts it. -/
theorem piece_eq (o : BlockOps) (P : (⟨4, ![1, 64, 130, 128]⟩ : Shape).Idx → EReal) (Wt : (⟨5, ![1, 8, 9, 128, 128]⟩ : Shape).Idx → EReal) (g : Fin 8) (oc : ℕ) (hoc : oc = 8 * g.val)
    (iA : ∀ a, (![0, oc, 0, 0] : Fin 4 → ℕ) a + (![1, 8, 128, 128] : Fin 4 → ℕ) a ≤ (⟨4, ![1, 64, 130, 128]⟩ : Shape).size a)
    (iB : ∀ a, (![0, oc, 1, 0] : Fin 4 → ℕ) a + (![1, 8, 128, 128] : Fin 4 → ℕ) a ≤ (⟨4, ![1, 64, 130, 128]⟩ : Shape).size a)
    (iC : ∀ a, (![0, oc, 2, 0] : Fin 4 → ℕ) a + (![1, 8, 128, 128] : Fin 4 → ℕ) a ≤ (⟨4, ![1, 64, 130, 128]⟩ : Shape).size a)
    (gi : ℕ) (hgi : gi = g.val)
    (i0 : ∀ a, (![0, gi, 0, 0, 0] : Fin 5 → ℕ) a + (![1, 1, 1, 128, 128] : Fin 5 → ℕ) a ≤ (⟨5, ![1, 8, 9, 128, 128]⟩ : Shape).size a)
    (i1 : ∀ a, (![0, gi, 1, 0, 0] : Fin 5 → ℕ) a + (![1, 1, 1, 128, 128] : Fin 5 → ℕ) a ≤ (⟨5, ![1, 8, 9, 128, 128]⟩ : Shape).size a)
    (i2 : ∀ a, (![0, gi, 2, 0, 0] : Fin 5 → ℕ) a + (![1, 1, 1, 128, 128] : Fin 5 → ℕ) a ≤ (⟨5, ![1, 8, 9, 128, 128]⟩ : Shape).size a)
    (i3 : ∀ a, (![0, gi, 3, 0, 0] : Fin 5 → ℕ) a + (![1, 1, 1, 128, 128] : Fin 5 → ℕ) a ≤ (⟨5, ![1, 8, 9, 128, 128]⟩ : Shape).size a)
    (i4 : ∀ a, (![0, gi, 4, 0, 0] : Fin 5 → ℕ) a + (![1, 1, 1, 128, 128] : Fin 5 → ℕ) a ≤ (⟨5, ![1, 8, 9, 128, 128]⟩ : Shape).size a)
    (i5 : ∀ a, (![0, gi, 5, 0, 0] : Fin 5 → ℕ) a + (![1, 1, 1, 128, 128] : Fin 5 → ℕ) a ≤ (⟨5, ![1, 8, 9, 128, 128]⟩ : Shape).size a)
    (i6 : ∀ a, (![0, gi, 6, 0, 0] : Fin 5 → ℕ) a + (![1, 1, 1, 128, 128] : Fin 5 → ℕ) a ≤ (⟨5, ![1, 8, 9, 128, 128]⟩ : Shape).size a)
    (i7 : ∀ a, (![0, gi, 7, 0, 0] : Fin 5 → ℕ) a + (![1, 1, 1, 128, 128] : Fin 5 → ℕ) a ≤ (⟨5, ![1, 8, 9, 128, 128]⟩ : Shape).size a)
    (i8 : ∀ a, (![0, gi, 8, 0, 0] : Fin 5 → ℕ) a + (![1, 1, 1, 128, 128] : Fin 5 → ℕ) a ≤ (⟨5, ![1, 8, 9, 128, 128]⟩ : Shape).size a)
    (iO : ∀ a, (![0, oc, 0, 0] : Fin 4 → ℕ) a + (![1, 8, 128, 128] : Fin 4 → ℕ) a ≤ (⟨4, ![1, 64, 128, 128]⟩ : Shape).size a)
    (x : (⟨4, ![1, 8, 128, 128]⟩ : Shape).Idx) :
    groupBlock o (View.ld (Val := Elt Ideal) (e' := .f32) P (Rect.unit (s := ⟨4, ![1, 64, 130, 128]⟩) ![0, oc, 0, 0] ![1, 8, 128, 128] iA)) (View.ld (Val := Elt Ideal) (e' := .f32) P (Rect.unit (s := ⟨4, ![1, 64, 130, 128]⟩) ![0, oc, 1, 0] ![1, 8, 128, 128] iB)) (View.ld (Val := Elt Ideal) (e' := .f32) P (Rect.unit (s := ⟨4, ![1, 64, 130, 128]⟩) ![0, oc, 2, 0] ![1, 8, 128, 128] iC))
        (View.ld (Val := Elt Ideal) (e' := .f32) Wt (Rect.unit (s := ⟨5, ![1, 8, 9, 128, 128]⟩) ![0, gi, 0, 0, 0] ![1, 1, 1, 128, 128] i0))
        (View.ld (Val := Elt Ideal) (e' := .f32) Wt (Rect.unit (s := ⟨5, ![1, 8, 9, 128, 128]⟩) ![0, gi, 1, 0, 0] ![1, 1, 1, 128, 128] i1))
        (View.ld (Val := Elt Ideal) (e' := .f32) Wt (Rect.unit (s := ⟨5, ![1, 8, 9, 128, 128]⟩) ![0, gi, 2, 0, 0] ![1, 1, 1, 128, 128] i2))
        (View.ld (Val := Elt Ideal) (e' := .f32) Wt (Rect.unit (s := ⟨5, ![1, 8, 9, 128, 128]⟩) ![0, gi, 3, 0, 0] ![1, 1, 1, 128, 128] i3))
        (View.ld (Val := Elt Ideal) (e' := .f32) Wt (Rect.unit (s := ⟨5, ![1, 8, 9, 128, 128]⟩) ![0, gi, 4, 0, 0] ![1, 1, 1, 128, 128] i4))
        (View.ld (Val := Elt Ideal) (e' := .f32) Wt (Rect.unit (s := ⟨5, ![1, 8, 9, 128, 128]⟩) ![0, gi, 5, 0, 0] ![1, 1, 1, 128, 128] i5))
        (View.ld (Val := Elt Ideal) (e' := .f32) Wt (Rect.unit (s := ⟨5, ![1, 8, 9, 128, 128]⟩) ![0, gi, 6, 0, 0] ![1, 1, 1, 128, 128] i6))
        (View.ld (Val := Elt Ideal) (e' := .f32) Wt (Rect.unit (s := ⟨5, ![1, 8, 9, 128, 128]⟩) ![0, gi, 7, 0, 0] ![1, 1, 1, 128, 128] i7))
        (View.ld (Val := Elt Ideal) (e' := .f32) Wt (Rect.unit (s := ⟨5, ![1, 8, 9, 128, 128]⟩) ![0, gi, 8, 0, 0] ![1, 1, 1, 128, 128] i8)) x
      = blockOut P Wt ((Rect.unit (s := ⟨4, ![1, 64, 128, 128]⟩) ![0, oc, 0, 0] ![1, 8, 128, 128] iO).emb x) := by
  obtain ⟨u, cc, h, w, rfl⟩ : ∃ (u : Fin 1) (cc : Fin 8) (h w : Fin 128), x = ix4 u cc h w := ⟨x 0, x 1, x 2, x 3, eq_ix4 x⟩
  have hcc := cc.isLt
  have hg := g.isLt
  have hh := h.isLt
  have he : (Rect.unit (s := ⟨4, ![1, 64, 128, 128]⟩) ![0, oc, 0, 0] ![1, 8, 128, 128] iO).emb (ix4 u cc h w)
      = ix4 (0 : Fin 1) (⟨8 * g.val + cc.val, by omega⟩ : Fin 64) h w := by
    funext a
    apply Fin.ext
    match a with
    | ⟨0, _⟩ => show 0 + 1 * u.val = 0; omega
    | ⟨1, _⟩ => show oc + 1 * cc.val = 8 * g.val + cc.val; omega
    | ⟨2, _⟩ => show 0 + 1 * h.val = h.val; omega
    | ⟨3, _⟩ => show 0 + 1 * w.val = w.val; omega
  rw [he, blockOut_apply P Wt 0 (⟨8 * g.val + cc.val, by omega⟩ : Fin 64) h w g cc rfl, groupBlock_apply]
  unfold blockAt
  have eR0 := rightAt_ld P oc 0 iA cc h w (⟨8 * g.val + cc.val, by omega⟩ : Fin 64) (⟨h.val + 0, by omega⟩ : Fin 130) (by show 8 * g.val + cc.val = oc + cc.val; omega) (by show h.val + 0 = 0 + h.val; omega)
  have eC0 := ld_window P oc 0 iA (0 : Fin 1) cc h w (⟨8 * g.val + cc.val, by omega⟩ : Fin 64) (⟨h.val + 0, by omega⟩ : Fin 130) (by show 8 * g.val + cc.val = oc + cc.val; omega) (by show h.val + 0 = 0 + h.val; omega)
  have eL0 := leftAt_ld P oc 0 iA cc h w (⟨8 * g.val + cc.val, by omega⟩ : Fin 64) (⟨h.val + 0, by omega⟩ : Fin 130) (by show 8 * g.val + cc.val = oc + cc.val; omega) (by show h.val + 0 = 0 + h.val; omega)
  have eR1 := rightAt_ld P oc 1 iB cc h w (⟨8 * g.val + cc.val, by omega⟩ : Fin 64) (⟨h.val + 1, by omega⟩ : Fin 130) (by show 8 * g.val + cc.val = oc + cc.val; omega) (by show h.val + 1 = 1 + h.val; omega)
  have eC1 := ld_window P oc 1 iB (0 : Fin 1) cc h w (⟨8 * g.val + cc.val, by omega⟩ : Fin 64) (⟨h.val + 1, by omega⟩ : Fin 130) (by show 8 * g.val + cc.val = oc + cc.val; omega) (by show h.val + 1 = 1 + h.val; omega)
  have eL1 := leftAt_ld P oc 1 iB cc h w (⟨8 * g.val + cc.val, by omega⟩ : Fin 64) (⟨h.val + 1, by omega⟩ : Fin 130) (by show 8 * g.val + cc.val = oc + cc.val; omega) (by show h.val + 1 = 1 + h.val; omega)
  have eR2 := rightAt_ld P oc 2 iC cc h w (⟨8 * g.val + cc.val, by omega⟩ : Fin 64) (⟨h.val + 2, by omega⟩ : Fin 130) (by show 8 * g.val + cc.val = oc + cc.val; omega) (by show h.val + 2 = 2 + h.val; omega)
  have eC2 := ld_window P oc 2 iC (0 : Fin 1) cc h w (⟨8 * g.val + cc.val, by omega⟩ : Fin 64) (⟨h.val + 2, by omega⟩ : Fin 130) (by show 8 * g.val + cc.val = oc + cc.val; omega) (by show h.val + 2 = 2 + h.val; omega)
  have eL2 := leftAt_ld P oc 2 iC cc h w (⟨8 * g.val + cc.val, by omega⟩ : Fin 64) (⟨h.val + 2, by omega⟩ : Fin 130) (by show 8 * g.val + cc.val = oc + cc.val; omega) (by show h.val + 2 = 2 + h.val; omega)
  have eW0 := ld_weight Wt gi 0 i0 h w g (0 : Fin 9) hgi.symm rfl
  have eW1 := ld_weight Wt gi 1 i1 h w g (1 : Fin 9) hgi.symm rfl
  have eW2 := ld_weight Wt gi 2 i2 h w g (2 : Fin 9) hgi.symm rfl
  have eW3 := ld_weight Wt gi 3 i3 h w g (3 : Fin 9) hgi.symm rfl
  have eW4 := ld_weight Wt gi 4 i4 h w g (4 : Fin 9) hgi.symm rfl
  have eW5 := ld_weight Wt gi 5 i5 h w g (5 : Fin 9) hgi.symm rfl
  have eW6 := ld_weight Wt gi 6 i6 h w g (6 : Fin 9) hgi.symm rfl
  have eW7 := ld_weight Wt gi 7 i7 h w g (7 : Fin 9) hgi.symm rfl
  have eW8 := ld_weight Wt gi 8 i8 h w g (8 : Fin 9) hgi.symm rfl
  rw [eR0, eC0, eL0, eR1, eC1, eL1, eR2, eC2, eL2, eW0, eW1, eW2, eW3, eW4, eW5, eW6, eW7, eW8]

end Cert.Agg

end
-- ==== Proof.Pieces.lean ====
/-
  The kernel body's output block. The body stores the eight groups one after the other, each through the rectangle of
  its eight channels; what it stores for a group is that group's block (the nine weighted windows added in order) of
  the loads it made at the group's channels and weights. The eight rectangles tile the block, and on each the stored
  value is one and the same function of the block's index, so the whole block is that function.
-/
import proofs.«100947_j30545807409744_1_alg».proof.Proof.Gen.KernelIdeal.Frame
import proofs.«100947_j30545807409744_1_alg».proof.Proof.BlockOut

set_option maxRecDepth 16384

noncomputable section

namespace Cert.KernelIdeal.Body

open Cert.KernelIdeal Cert.KernelIdeal.Gen Cert.Agg Idealize.ShloMosaic Idealize.ShloMosaic.ValueIdx

/-- The side conditions of a group's shape operations, as this program states them. -/
theorem kops : BlockOps :=
  ⟨shapeCasts_S1x8x128x128_S8x128x128, shapeCasts_S8x128x128_S1x8x128x128, rotates_S8x128x128_d2, iota_S8x128x128_d2_w32,
    shapeCasts_S1x1x1x128x128_S128x128, shapeCasts_S128x128_S1x128x128, broadcasts_S1x128x128_S8x128x128⟩

section
variable {F : FTy → Type} [FloatOps F]

/-- The body's eight stores, last first: each payload is its group's block of the loads made for that group. -/
theorem out_pieces (x0 : Vec F S1x64x130x128 .f32) (x1 : Vec F S1x8x9x128x128 .f32) :
    out0_2 x0 x1 = View.canon [⟨r0_103, groupBlock kops (View.ld x0 r0_91) (View.ld x0 r0_95) (View.ld x0 r0_99) (View.ld x1 r0_92) (View.ld x1 r0_93) (View.ld x1 r0_94) (View.ld x1 r0_96) (View.ld x1 r0_97) (View.ld x1 r0_98) (View.ld x1 r0_100) (View.ld x1 r0_101) (View.ld x1 r0_102)⟩,
      ⟨r0_90, groupBlock kops (View.ld x0 r0_78) (View.ld x0 r0_82) (View.ld x0 r0_86) (View.ld x1 r0_79) (View.ld x1 r0_80) (View.ld x1 r0_81) (View.ld x1 r0_83) (View.ld x1 r0_84) (View.ld x1 r0_85) (View.ld x1 r0_87) (View.ld x1 r0_88) (View.ld x1 r0_89)⟩,
      ⟨r0_77, groupBlock kops (View.ld x0 r0_65) (View.ld x0 r0_69) (View.ld x0 r0_73) (View.ld x1 r0_66) (View.ld x1 r0_67) (View.ld x1 r0_68) (View.ld x1 r0_70) (View.ld x1 r0_71) (View.ld x1 r0_72) (View.ld x1 r0_74) (View.ld x1 r0_75) (View.ld x1 r0_76)⟩,
      ⟨r0_64, groupBlock kops (View.ld x0 r0_52) (View.ld x0 r0_56) (View.ld x0 r0_60) (View.ld x1 r0_53) (View.ld x1 r0_54) (View.ld x1 r0_55) (View.ld x1 r0_57) (View.ld x1 r0_58) (View.ld x1 r0_59) (View.ld x1 r0_61) (View.ld x1 r0_62) (View.ld x1 r0_63)⟩,
      ⟨r0_51, groupBlock kops (View.ld x0 r0_39) (View.ld x0 r0_43) (View.ld x0 r0_47) (View.ld x1 r0_40) (View.ld x1 r0_41) (View.ld x1 r0_42) (View.ld x1 r0_44) (View.ld x1 r0_45) (View.ld x1 r0_46) (View.ld x1 r0_48) (View.ld x1 r0_49) (View.ld x1 r0_50)⟩,
      ⟨r0_38, groupBlock kops (View.ld x0 r0_26) (View.ld x0 r0_30) (View.ld x0 r0_34) (View.ld x1 r0_27) (View.ld x1 r0_28) (View.ld x1 r0_29) (View.ld x1 r0_31) (View.ld x1 r0_32) (View.ld x1 r0_33) (View.ld x1 r0_35) (View.ld x1 r0_36) (View.ld x1 r0_37)⟩,
      ⟨r0_25, groupBlock kops (View.ld x0 r0_13) (View.ld x0 r0_17) (View.ld x0 r0_21) (View.ld x1 r0_14) (View.ld x1 r0_15) (View.ld x1 r0_16) (View.ld x1 r0_18) (View.ld x1 r0_19) (View.ld x1 r0_20) (View.ld x1 r0_22) (View.ld x1 r0_23) (View.ld x1 r0_24)⟩,
      ⟨r0_12, groupBlock kops (View.ld x0 r0_0) (View.ld x0 r0_4) (View.ld x0 r0_8) (View.ld x1 r0_1) (View.ld x1 r0_2) (View.ld x1 r0_3) (View.ld x1 r0_5) (View.ld x1 r0_6) (View.ld x1 r0_7) (View.ld x1 r0_9) (View.ld x1 r0_10) (View.ld x1 r0_11)⟩] := rfl

end

/-- THE BODY'S OUTPUT BLOCK, at the extended reals, is the block function of the two input blocks. -/
theorem out_eq (x0 : Vec Ideal S1x64x130x128 .f32) (x1 : Vec Ideal S1x8x9x128x128 .f32) : out0_2 x0 x1 = blockOut x0 x1 := by
  funext y
  rw [out_pieces]
  refine View.canon_apply_of_pieces (Val := Elt Ideal) (S := S1x64x128x128) (e := .f32) (blockOut x0 x1) _ ?_ y (cover0_2 _ _ _ _ _ _ _ _ y)
  intro p hp x
  simp only [List.mem_cons, List.not_mem_nil, or_false] at hp
  rcases hp with rfl | rfl | rfl | rfl | rfl | rfl | rfl | rfl
  · exact piece_eq kops x0 x1 (7 : Fin 8) 56 rfl inb_S1x64x130x128_S1x8x128x128_0_56_0_0 inb_S1x64x130x128_S1x8x128x128_0_56_1_0 inb_S1x64x130x128_S1x8x128x128_0_56_2_0 7 rfl inb_S1x8x9x128x128_S1x1x1x128x128_0_7_0_0_0 inb_S1x8x9x128x128_S1x1x1x128x128_0_7_1_0_0 inb_S1x8x9x128x128_S1x1x1x128x128_0_7_2_0_0 inb_S1x8x9x128x128_S1x1x1x128x128_0_7_3_0_0 inb_S1x8x9x128x128_S1x1x1x128x128_0_7_4_0_0 inb_S1x8x9x128x128_S1x1x1x128x128_0_7_5_0_0 inb_S1x8x9x128x128_S1x1x1x128x128_0_7_6_0_0 inb_S1x8x9x128x128_S1x1x1x128x128_0_7_7_0_0 inb_S1x8x9x128x128_S1x1x1x128x128_0_7_8_0_0 inb_S1x64x128x128_S1x8x128x128_0_56_0_0 x
  · exact piece_eq kops x0 x1 (6 : Fin 8) 48 rfl inb_S1x64x130x128_S1x8x128x128_0_48_0_0 inb_S1x64x130x128_S1x8x128x128_0_48_1_0 inb_S1x64x130x128_S1x8x128x128_0_48_2_0 6 rfl inb_S1x8x9x128x128_S1x1x1x128x128_0_6_0_0_0 inb_S1x8x9x128x128_S1x1x1x128x128_0_6_1_0_0 inb_S1x8x9x128x128_S1x1x1x128x128_0_6_2_0_0 inb_S1x8x9x128x128_S1x1x1x128x128_0_6_3_0_0 inb_S1x8x9x128x128_S1x1x1x128x128_0_6_4_0_0 inb_S1x8x9x128x128_S1x1x1x128x128_0_6_5_0_0 inb_S1x8x9x128x128_S1x1x1x128x128_0_6_6_0_0 inb_S1x8x9x128x128_S1x1x1x128x128_0_6_7_0_0 inb_S1x8x9x128x128_S1x1x1x128x128_0_6_8_0_0 inb_S1x64x128x128_S1x8x128x128_0_48_0_0 x
  · exact piece_eq kops x0 x1 (5 : Fin 8) 40 rfl inb_S1x64x130x128_S1x8x128x128_0_40_0_0 inb_S1x64x130x128_S1x8x128x128_0_40_1_0 inb_S1x64x130x128_S1x8x128x128_0_40_2_0 5 rfl inb_S1x8x9x128x128_S1x1x1x128x128_0_5_0_0_0 inb_S1x8x9x128x128_S1x1x1x128x128_0_5_1_0_0 inb_S1x8x9x128x128_S1x1x1x128x128_0_5_2_0_0 inb_S1x8x9x128x128_S1x1x1x128x128_0_5_3_0_0 inb_S1x8x9x128x128_S1x1x1x128x128_0_5_4_0_0 inb_S1x8x9x128x128_S1x1x1x128x128_0_5_5_0_0 inb_S1x8x9x128x128_S1x1x1x128x128_0_5_6_0_0 inb_S1x8x9x128x128_S1x1x1x128x128_0_5_7_0_0 inb_S1x8x9x128x128_S1x1x1x128x128_0_5_8_0_0 inb_S1x64x128x128_S1x8x128x128_0_40_0_0 x
  · exact piece_eq kops x0 x1 (4 : Fin 8) 32 rfl inb_S1x64x130x128_S1x8x128x128_0_32_0_0 inb_S1x64x130x128_S1x8x128x128_0_32_1_0 inb_S1x64x130x128_S1x8x128x128_0_32_2_0 4 rfl inb_S1x8x9x128x128_S1x1x1x128x128_0_4_0_0_0 inb_S1x8x9x128x128_S1x1x1x128x128_0_4_1_0_0 inb_S1x8x9x128x128_S1x1x1x128x128_0_4_2_0_0 inb_S1x8x9x128x128_S1x1x1x128x128_0_4_3_0_0 inb_S1x8x9x128x128_S1x1x1x128x128_0_4_4_0_0 inb_S1x8x9x128x128_S1x1x1x128x128_0_4_5_0_0 inb_S1x8x9x128x128_S1x1x1x128x128_0_4_6_0_0 inb_S1x8x9x128x128_S1x1x1x128x128_0_4_7_0_0 inb_S1x8x9x128x128_S1x1x1x128x128_0_4_8_0_0 inb_S1x64x128x128_S1x8x128x128_0_32_0_0 x
  · exact piece_eq kops x0 x1 (3 : Fin 8) 24 rfl inb_S1x64x130x128_S1x8x128x128_0_24_0_0 inb_S1x64x130x128_S1x8x128x128_0_24_1_0 inb_S1x64x130x128_S1x8x128x128_0_24_2_0 3 rfl inb_S1x8x9x128x128_S1x1x1x128x128_0_3_0_0_0 inb_S1x8x9x128x128_S1x1x1x128x128_0_3_1_0_0 inb_S1x8x9x128x128_S1x1x1x128x128_0_3_2_0_0 inb_S1x8x9x128x128_S1x1x1x128x128_0_3_3_0_0 inb_S1x8x9x128x128_S1x1x1x128x128_0_3_4_0_0 inb_S1x8x9x128x128_S1x1x1x128x128_0_3_5_0_0 inb_S1x8x9x128x128_S1x1x1x128x128_0_3_6_0_0 inb_S1x8x9x128x128_S1x1x1x128x128_0_3_7_0_0 inb_S1x8x9x128x128_S1x1x1x128x128_0_3_8_0_0 inb_S1x64x128x128_S1x8x128x128_0_24_0_0 x
  · exact piece_eq kops x0 x1 (2 : Fin 8) 16 rfl inb_S1x64x130x128_S1x8x128x128_0_16_0_0 inb_S1x64x130x128_S1x8x128x128_0_16_1_0 inb_S1x64x130x128_S1x8x128x128_0_16_2_0 2 rfl inb_S1x8x9x128x128_S1x1x1x128x128_0_2_0_0_0 inb_S1x8x9x128x128_S1x1x1x128x128_0_2_1_0_0 inb_S1x8x9x128x128_S1x1x1x128x128_0_2_2_0_0 inb_S1x8x9x128x128_S1x1x1x128x128_0_2_3_0_0 inb_S1x8x9x128x128_S1x1x1x128x128_0_2_4_0_0 inb_S1x8x9x128x128_S1x1x1x128x128_0_2_5_0_0 inb_S1x8x9x128x128_S1x1x1x128x128_0_2_6_0_0 inb_S1x8x9x128x128_S1x1x1x128x128_0_2_7_0_0 inb_S1x8x9x128x128_S1x1x1x128x128_0_2_8_0_0 inb_S1x64x128x128_S1x8x128x128_0_16_0_0 x
  · exact piece_eq kops x0 x1 (1 : Fin 8) 8 rfl inb_S1x64x130x128_S1x8x128x128_0_8_0_0 inb_S1x64x130x128_S1x8x128x128_0_8_1_0 inb_S1x64x130x128_S1x8x128x128_0_8_2_0 1 rfl inb_S1x8x9x128x128_S1x1x1x128x128_0_1_0_0_0 inb_S1x8x9x128x128_S1x1x1x128x128_0_1_1_0_0 inb_S1x8x9x128x128_S1x1x1x128x128_0_1_2_0_0 inb_S1x8x9x128x128_S1x1x1x128x128_0_1_3_0_0 inb_S1x8x9x128x128_S1x1x1x128x128_0_1_4_0_0 inb_S1x8x9x128x128_S1x1x1x128x128_0_1_5_0_0 inb_S1x8x9x128x128_S1x1x1x128x128_0_1_6_0_0 inb_S1x8x9x128x128_S1x1x1x128x128_0_1_7_0_0 inb_S1x8x9x128x128_S1x1x1x128x128_0_1_8_0_0 inb_S1x64x128x128_S1x8x128x128_0_8_0_0 x
  · exact piece_eq kops x0 x1 (0 : Fin 8) 0 rfl inb_S1x64x130x128_S1x8x128x128_0_0_0_0 inb_S1x64x130x128_S1x8x128x128_0_0_1_0 inb_S1x64x130x128_S1x8x128x128_0_0_2_0 0 rfl inb_S1x8x9x128x128_S1x1x1x128x128_0_0_0_0_0 inb_S1x8x9x128x128_S1x1x1x128x128_0_0_1_0_0 inb_S1x8x9x128x128_S1x1x1x128x128_0_0_2_0_0 inb_S1x8x9x128x128_S1x1x1x128x128_0_0_3_0_0 inb_S1x8x9x128x128_S1x1x1x128x128_0_0_4_0_0 inb_S1x8x9x128x128_S1x1x1x128x128_0_0_5_0_0 inb_S1x8x9x128x128_S1x1x1x128x128_0_0_6_0_0 inb_S1x8x9x128x128_S1x1x1x128x128_0_0_7_0_0 inb_S1x8x9x128x128_S1x1x1x128x128_0_0_8_0_0 inb_S1x64x128x128_S1x8x128x128_0_0_0_0 x

end Cert.KernelIdeal.Body

end
-- ==== Proof.Border.lean ====
/-
  The block function of a grid point is the stencil of the whole arrays. If the block P a grid point sees of the
  row-padded array is, entry by entry, the ring-bordered plane of x for batch entry tb (row i of the padded plane is
  bordered row i; column j of the padded plane is bordered column j + 1), then reading P to the left of column w, at
  column w, and to the right of column w — a zero standing in beyond either edge — reads the bordered plane at bordered
  columns w, w + 1, w + 2: the zero that stands in IS the ring's zero. With the weights' block the weights of batch
  entry tb, the block function is the aggregate.
-/
import proofs.«100947_j30545807409744_1_alg».proof.Proof.BlockOut
import proofs.«100947_j30545807409744_1_alg».proof.Proof.Stencil

noncomputable section

namespace Cert.Agg

open Idealize.ShloMosaic Idealize.ShloMosaic.ValueIdx

section
variable (P : (⟨4, ![1, 64, 130, 128]⟩ : Shape).Idx → EReal) (X : (⟨4, ![8, 64, 128, 128]⟩ : Shape).Idx → EReal) (tb : Fin 8)
  (hP : ∀ (c : Fin 64) (i : Fin 130) (j : Fin 128), P (ix4 (0 : Fin 1) c i j) = ringed X tb c i.val (j.val + 1))
include hP

/-- To the left of column `w`: bordered column `w`. -/
theorem fromLeft_eq (c : Fin 64) (i : Fin 130) (w : Fin 128) (r : ℕ) (hr : r = i.val) :
    fromLeft P c i w = ringed X tb c r (w.val + 0) := by
  subst hr
  unfold fromLeft
  by_cases hw : 0 < w.val
  · rw [dif_pos hw, hP]
    exact congrArg (ringed X tb c i.val) (by show w.val - 1 + 1 = w.val + 0; omega)
  · rw [dif_neg hw, Ideal.ofBits_zero_f32, ringed_of_outside X tb c i.val (w.val + 0) (by omega)]

/-- At column `w`: bordered column `w + 1`. -/
theorem centre_eq (c : Fin 64) (i : Fin 130) (w : Fin 128) (r : ℕ) (hr : r = i.val) :
    P (ix4 (0 : Fin 1) c i w) = ringed X tb c r (w.val + 1) := by
  subst hr
  exact hP c i w

/-- To the right of column `w`: bordered column `w + 2`. -/
theorem fromRight_eq (c : Fin 64) (i : Fin 130) (w : Fin 128) (r : ℕ) (hr : r = i.val) :
    fromRight P c i w = ringed X tb c r (w.val + 2) := by
  subst hr
  unfold fromRight
  by_cases hw : w.val < 127
  · rw [dif_pos hw, hP]
  · rw [dif_neg hw, Ideal.ofBits_zero_f32, ringed_of_outside X tb c i.val (w.val + 2) (by omega)]

/-- THE BLOCK FUNCTION IS THE AGGREGATE of the whole arrays at batch entry `tb`. -/
theorem blockAt_eq_agg (Wt : (⟨5, ![1, 8, 9, 128, 128]⟩ : Shape).Idx → EReal) (W : (⟨6, ![8, 8, 1, 9, 128, 128]⟩ : Shape).Idx → EReal)
    (hW : ∀ (g : Fin 8) (k : Fin 9) (h w : Fin 128), Wt (ix5 (0 : Fin 1) g k h w) = tapWeight W tb g k h w)
    (g cc : Fin 8) (h w : Fin 128) : blockAt P Wt g cc h w = agg X W tb g cc h w := by
  unfold blockAt agg
  rw [fromLeft_eq P X tb hP _ _ w (h.val + 0) rfl, centre_eq P X tb hP _ _ w (h.val + 0) rfl, fromRight_eq P X tb hP _ _ w (h.val + 0) rfl,
    fromLeft_eq P X tb hP _ _ w (h.val + 1) rfl, centre_eq P X tb hP _ _ w (h.val + 1) rfl, fromRight_eq P X tb hP _ _ w (h.val + 1) rfl,
    fromLeft_eq P X tb hP _ _ w (h.val + 2) rfl, centre_eq P X tb hP _ _ w (h.val + 2) rfl, fromRight_eq P X tb hP _ _ w (h.val + 2) rfl,
    hW, hW, hW, hW, hW, hW, hW, hW, hW]

end

end Cert.Agg

end
-- ==== Proof.KernelValue.lean ====
/-
  The kernel's output array. The program pads x with one zero row above and below every plane (the padding value is
  the integer zero converted, which at the extended reals is 0), views the weights [8, 8, 1, 9, 128, 128] as
  [8, 8, 9, 128, 128], and runs the body once per batch entry t, on block t of the padded array and block t of the
  weights, writing block t of the output. Block t of the padded array is the ring-bordered plane of batch entry t with
  the border's two columns left out (padded column j is bordered column j + 1), so the body's block function at t is the
  stencil's aggregate at batch entry t; the eight blocks are the eight batch entries of the output array and tile it.
-/
import proofs.«100947_j30545807409744_1_alg».proof.Proof.Gen.KernelIdeal.Value
import proofs.«100947_j30545807409744_1_alg».proof.Proof.Pieces
import proofs.«100947_j30545807409744_1_alg».proof.Proof.Border
import Idealize.ShloMosaic.Lib.StableHlo.Run
import Idealize.ShloMosaic.Lib.KernelVsHost

set_option maxRecDepth 16384

noncomputable section

namespace Cert.KernelIdeal.ArrayValue

open Cert.KernelIdeal Cert.KernelIdeal.Gen Cert.KernelIdeal.Body Cert.Agg
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The argument arrays on core `c`. -/
abbrev xArr (c : Dev nD) : S8x64x128x128.Idx → EReal := m ((c : Thread nD τ).loc main_arg0)
abbrev wArr (c : Dev nD) : S8x8x1x9x128x128.Idx → EReal := m ((c : Thread nD τ).loc main_arg1)

/-! ## The two arrays the region stages, as the host operations before it leave them -/

/-- The staged first operand is x padded by one row on each side of axis 2 with the converted integer zero. -/
theorem padded_eq (c : Dev nD) : (V m c main_v0 : S8x64x130x128.Idx → EReal)
    = pad S8x64x130x128 ![0, 0, 1, 0] ![0, 0, 1, 0] ![0, 0, 0, 0] (xArr m c) (sitofp (F := Ideal) .f32 (constantI S_ 32 0#32))
        pads_S8x64x128x128_S8x64x130x128_000_000_110_000 h_S_ := by
  dsimp only [V]
  simp only [hostOps0, hostOps0_1, hostOps0_2, List.flatten_cons, List.flatten_nil, List.append_nil, List.cons_append,
    List.nil_append]
  after_results
  rfl

/-- The staged second operand is the weights with their unit axis dropped. -/
theorem weights_eq (c : Dev nD) : (V m c main_v1 : S8x8x9x128x128.Idx → EReal)
    = shapeCast S8x8x9x128x128 (wArr m c) shapeCasts_S8x8x1x9x128x128_S8x8x9x128x128 := by
  dsimp only [V]
  simp only [hostOps0, hostOps0_1, hostOps0_2, List.flatten_cons, List.flatten_nil, List.append_nil, List.cons_append,
    List.nil_append]
  after_results
  rfl

/-! ## The blocks a grid point sees -/

/-- The three index maps, decided over the eight grid points: block `t` of each array is its batch entry `t`, whole. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 5) = t.val ∧ win0_1.index t (1 : Fin 5) = 0 ∧ win0_1.index t (2 : Fin 5) = 0 ∧ win0_1.index t (3 : Fin 5) = 0
        ∧ win0_1.index t (4 : Fin 5) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- A grid point as a batch entry. -/
abbrev entry (t : Fin cfg0.N) : Fin 8 := ⟨t.val, t.isLt⟩

/-- Block `t` of the padded array, entry by entry, is the ring-bordered plane of batch entry `t` without the border's
    two columns. -/
theorem padded_block (c : Dev nD) (t : Fin cfg0.N) (cch : Fin 64) (i : Fin 130) (j : Fin 128) :
    iblk m c 0 t (ix4 (0 : Fin 1) cch i j) = ringed (xArr m c) (entry t) cch i.val (j.val + 1) := by
  obtain ⟨⟨e0, e1, e2, e3⟩, -, -⟩ := idx_facts t
  have ht : t.val < 8 := t.isLt
  have hi := i.isLt
  show V m c main_v0 (((cfg0.win 0).blk t).view.emb (ix4 (0 : Fin 1) cch i j)) = _
  have he : ((cfg0.win 0).blk t).view.emb (ix4 (0 : Fin 1) cch i j) = ix4 (entry t) cch i j := by
    funext a
    apply Fin.ext
    match a with
    | ⟨0, _⟩ => show win0_0.index t (0 : Fin 4) * 1 + 1 * 0 = t.val; omega
    | ⟨1, _⟩ => show win0_0.index t (1 : Fin 4) * 64 + 1 * cch.val = cch.val; omega
    | ⟨2, _⟩ => show win0_0.index t (2 : Fin 4) * 130 + 1 * i.val = i.val; omega
    | ⟨3, _⟩ => show win0_0.index t (3 : Fin 4) * 128 + 1 * j.val = j.val; omega
  rw [he, padded_eq]
  by_cases hin : 1 ≤ i.val ∧ i.val ≤ 128
  · rw [pad_apply_of_inside ![0, 0, 1, 0] ![0, 0, 1, 0] ![0, 0, 0, 0] (xArr m c) _ pads_S8x64x128x128_S8x64x130x128_000_000_110_000 h_S_
      (ix4 (entry t) cch i j) (ix4 (entry t) cch (⟨i.val - 1, by omega⟩ : Fin 128) j) (fun a => by
        match a with
        | ⟨0, _⟩ => show t.val = 0 + t.val * (0 + 1); omega
        | ⟨1, _⟩ => show cch.val = 0 + cch.val * (0 + 1); omega
        | ⟨2, _⟩ => show i.val = 1 + (i.val - 1) * (0 + 1); omega
        | ⟨3, _⟩ => show j.val = 0 + j.val * (0 + 1); omega)]
    exact (ringed_of_inside (xArr m c) (entry t) cch i.val (j.val + 1) ⟨i.val - 1, by omega⟩ j (by show i.val = i.val - 1 + 1; omega) rfl).symm
  · rw [pad_apply_of_not_inside ![0, 0, 1, 0] ![0, 0, 1, 0] ![0, 0, 0, 0] (xArr m c) _ pads_S8x64x128x128_S8x64x130x128_000_000_110_000 h_S_
      (ix4 (entry t) cch i j) (2 : Fin 4) (by
        show ¬(1 ≤ i.val ∧ (i.val - 1) % (0 + 1) = 0 ∧ (i.val - 1) / (0 + 1) < 128)
        omega)]
    rw [ringed_of_outside (xArr m c) (entry t) cch i.val (j.val + 1) (by omega)]
    exact sitofp_zero (φ := .f32)

/-- Block `t` of the staged weights, entry by entry, is the weights of batch entry `t`. -/
theorem weights_block (c : Dev nD) (t : Fin cfg0.N) (g : Fin 8) (k : Fin 9) (h w : Fin 128) :
    iblk m c 1 t (ix5 (0 : Fin 1) g k h w) = tapWeight (wArr m c) (entry t) g k h w := by
  obtain ⟨-, ⟨e0, e1, e2, e3, e4⟩, -⟩ := idx_facts t
  have ht : t.val < 8 := t.isLt
  show V m c main_v1 (((cfg0.win 1).blk t).view.emb (ix5 (0 : Fin 1) g k h w)) = _
  have he : ((cfg0.win 1).blk t).view.emb (ix5 (0 : Fin 1) g k h w) = ix5 (entry t) g k h w := by
    funext a
    apply Fin.ext
    match a with
    | ⟨0, _⟩ => show win0_1.index t (0 : Fin 5) * 1 + 1 * 0 = t.val; omega
    | ⟨1, _⟩ => show win0_1.index t (1 : Fin 5) * 8 + 1 * g.val = g.val; omega
    | ⟨2, _⟩ => show win0_1.index t (2 : Fin 5) * 9 + 1 * k.val = k.val; omega
    | ⟨3, _⟩ => show win0_1.index t (3 : Fin 5) * 128 + 1 * h.val = h.val; omega
    | ⟨4, _⟩ => show win0_1.index t (4 : Fin 5) * 128 + 1 * w.val = w.val; omega
  rw [he, weights_eq]
  exact shapeCast_apply (wArr m c) shapeCasts_S8x8x1x9x128x128_S8x8x9x128x128 (ix5 (entry t) g k h w)
    (ix6 (entry t) g (0 : Fin 1) k h w) (by
      rw [Shape.rowMajor_val_six, Shape.rowMajor_val_five]
      show (((((t.val * 8 + g.val) * 1 + 0) * 9 + k.val) * 128 + h.val) * 128 + w.val)
        = ((((t.val * 8 + g.val) * 9 + k.val) * 128 + h.val) * 128 + w.val)
      omega)

/-! ## What a grid point writes back, and the whole array -/

/-- WHAT POINT `t` WRITES BACK is block `t` of the stencil's result of the argument arrays. -/
theorem flushed_eq (c : Dev nD) (t : Fin cfg0.N) :
    (dats m 0 c).flushed 2 t = ((cfg0.win 2).blk t).view.read (Elt Ideal) (result (xArr m c) (wArr m c)) := by
  rw [Value.flushed2]
  have hb : out0_2 (iblk m c 0 t) (iblk m c 1 t) = blockOut (iblk m c 0 t) (iblk m c 1 t) := out_eq _ _
  rw [hb]
  obtain ⟨-, -, ⟨e0, e1, e2, e3⟩⟩ := idx_facts t
  have ht : t.val < 8 := t.isLt
  funext y
  obtain ⟨u, cch, h, w, rfl⟩ : ∃ (u : Fin 1) (cch : Fin 64) (h w : Fin 128), y = ix4 u cch h w := ⟨y 0, y 1, y 2, y 3, eq_ix4 y⟩
  show blockOut (iblk m c 0 t) (iblk m c 1 t) (ix4 u cch h w)
    = result (xArr m c) (wArr m c) (((cfg0.win 2).blk t).view.emb (ix4 u cch h w))
  have he : ((cfg0.win 2).blk t).view.emb (ix4 u cch h w) = ix4 (entry t) cch h w := by
    funext a
    apply Fin.ext
    match a with
    | ⟨0, _⟩ => show win0_2.index t (0 : Fin 4) * 1 + 1 * u.val = t.val; omega
    | ⟨1, _⟩ => show win0_2.index t (1 : Fin 4) * 64 + 1 * cch.val = cch.val; omega
    | ⟨2, _⟩ => show win0_2.index t (2 : Fin 4) * 128 + 1 * h.val = h.val; omega
    | ⟨3, _⟩ => show win0_2.index t (3 : Fin 4) * 128 + 1 * w.val = w.val; omega
  have hc := cch.isLt
  rw [he, blockOut_apply _ _ u cch h w ⟨cch.val / 8, by omega⟩ ⟨cch.val % 8, by omega⟩ (by show cch.val = 8 * (cch.val / 8) + cch.val % 8; omega),
    result_apply _ _ (entry t) ⟨cch.val / 8, by omega⟩ ⟨cch.val % 8, by omega⟩ h w cch (by show cch.val = 8 * (cch.val / 8) + cch.val % 8; omega)]
  exact blockAt_eq_agg (iblk m c 0 t) (xArr m c) (entry t) (padded_block m c t) (iblk m c 1 t) (wArr m c) (weights_block m c t) _ _ h w

/-- An index of the output array is in point `t`'s block iff each coordinate is in the block's range on its axis. -/
theorem mem_blk (t : Fin cfg0.N) (i : S8x64x128x128.Idx) :
    i ∈ ((cfg0.win 2).blk t).view.set
      ↔ ∀ a : Fin 4, win0_2.index t a * S1x64x128x128.size a ≤ (i a).val ∧ (i a).val < win0_2.index t a * S1x64x128x128.size a + S1x64x128x128.size a := by
  show i ∈ ((View.whole main_v2).slice (win0_2.rect t)).set ↔ _
  rw [View.set_slice_whole, Rect.mem_set_unit]
  exact Iff.rfl

/-- Every index of the output array lies in the block of the point that is its batch entry. -/
theorem covered (i : S8x64x128x128.Idx) : ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 128 := (i 2).isLt
  have h3 : (i 3).val < 128 := (i 3).isLt
  obtain ⟨t0, ht0⟩ : ∃ t0 : Fin cfg0.N, t0.val = (i 0).val := ⟨⟨(i 0).val, h0⟩, rfl⟩
  refine ⟨t0, flush0_2 _, ?_⟩
  obtain ⟨-, -, ⟨e0, e1, e2, e3⟩⟩ := idx_facts t0
  rw [mem_blk]
  intro a
  match a with
  | ⟨0, _⟩ => show win0_2.index t0 (0 : Fin 4) * 1 ≤ (i 0).val ∧ (i 0).val < win0_2.index t0 (0 : Fin 4) * 1 + 1; omega
  | ⟨1, _⟩ => show win0_2.index t0 (1 : Fin 4) * 64 ≤ (i 1).val ∧ (i 1).val < win0_2.index t0 (1 : Fin 4) * 64 + 64; omega
  | ⟨2, _⟩ => show win0_2.index t0 (2 : Fin 4) * 128 ≤ (i 2).val ∧ (i 2).val < win0_2.index t0 (2 : Fin 4) * 128 + 128; omega
  | ⟨3, _⟩ => show win0_2.index t0 (3 : Fin 4) * 128 ≤ (i 3).val ∧ (i 3).val < win0_2.index t0 (3 : Fin 4) * 128 + 128; omega

/-- THE OUTPUT ARRAY after the run is the stencil's result of the argument arrays. -/
theorem final (c : Dev nD) : (dats m 0 c).arrAt 2 cfg0.N = result (xArr m c) (wArr m c) :=
  (dats m 0 c).arrAt_eq_of_cover 2 (result (xArr m c) (wArr m c)) (fun t _ => flushed_eq m c t) covered

/-- The kernel's run: the result array at the stencil's result, the arguments unchanged. -/
theorem run : θ_run defs (onTc (τ := τ) (main (F := Ideal))) ⟨m, fun _ => 0, ρ⟩ fun r => ∀ c : Dev nD,
      r.2.mem ((c : Thread nD τ).loc main_v2) = result (xArr m c) (wArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  The kernel and its reference compute one 3×3 neighbourhood aggregation with per-pixel weights
  (Proof/Stencil.lean): at batch entry b, channel c, row h, column w the nine entries of the plane x[b, c] around
  (h, w) — zero outside the plane — each times the weight of its tap for the channel's group at (h, w), added in the
  order of the taps onto a leading zero.

  The reference borders every plane with a ring of zeros and adds nine shifted windows of the bordered array, each
  times its tap's weights broadcast over the group's channels (Proof/RefValue.lean, over the reference's run read
  one operation at a time). The kernel borders the planes with zero ROWS only, and takes the neighbouring columns by
  rotating the lanes and zeroing the lane that came around the end; one grid point computes one batch entry, its 64
  channels in eight stores of eight channels (Proof/Taps.lean, GroupBlock.lean, BlockOut.lean, Pieces.lean: the body's
  block as one function of the two blocks it reads; Border.lean: the zero brought in by the mask is the ring's zero;
  KernelValue.lean: the blocks tile the output array). Both add the same nine products in the same order, so the two
  results are equal as extended reals with no law of arithmetic used, and the precondition (finite inputs) is never
  opened. The idealization rewrote nothing, so `preserves` is trivial; the frames are the generated ones (the
  reference's is its run with the result dropped).
-/
import proofs.«100947_j30545807409744_1_alg».proof.Defs
import proofs.«100947_j30545807409744_1_alg».proof.Proof.Gen.Kernel
import proofs.«100947_j30545807409744_1_alg».proof.Proof.Gen.Kernel.Frame
import proofs.«100947_j30545807409744_1_alg».proof.Proof.Gen.KernelIdeal
import proofs.«100947_j30545807409744_1_alg».proof.Proof.Gen.KernelIdeal.Frame
import proofs.«100947_j30545807409744_1_alg».proof.Proof.Gen.KernelIdeal.Value
import proofs.«100947_j30545807409744_1_alg».proof.Proof.Gen.ReferenceIdeal
import proofs.«100947_j30545807409744_1_alg».proof.Proof.Gen.Pre_finite_inputs
import proofs.«100947_j30545807409744_1_alg».proof.Proof.RefRun
import proofs.«100947_j30545807409744_1_alg».proof.Proof.RefRead
import proofs.«100947_j30545807409744_1_alg».proof.Proof.RefValue
import proofs.«100947_j30545807409744_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on x and on the weights, both programs end with the stencil's result of those arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v57_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
